-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128x7 : Shape := ⟨3, ![16384, 128, 7]⟩
abbrev S16384x128 : Shape := ⟨2, ![16384, 128]⟩
abbrev S16x5 : Shape := ⟨2, ![16, 5]⟩
abbrev S16 : Shape := ⟨1, ![16]⟩
abbrev S25x8 : Shape := ⟨2, ![25, 8]⟩
abbrev S_ : Shape := ⟨0, ![]⟩

class Facts : Prop where
  bcast_S_S16384x128x7 : S_.BroadcastsInDim S16384x128x7 (![] : Fin 0 → Fin S16384x128x7.rank)
  reducesTo_S16384x128x7_S_d0_1_2 : S16384x128x7.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16x5 : S_.BroadcastsInDim S16x5 (![] : Fin 0 → Fin S16x5.rank)
  reducesTo_S16x5_S_d0_1 : S16x5.ReducesTo [0, 1] S_
  bcast_S_S16 : S_.BroadcastsInDim S16 (![] : Fin 0 → Fin S16.rank)
  reducesTo_S16_S_d0 : S16.ReducesTo [0] S_
  bcast_S_S25x8 : S_.BroadcastsInDim S25x8 (![] : Fin 0 → Fin S25x8.rank)
  reducesTo_S25x8_S_d0_1 : S25x8.ReducesTo [0, 1] S_

variable [Facts]

def fn_part1 {F : FTy → Type} [FloatOps F] (main_arg4 : FVec F S25x8 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S25x8 .f32 := Host.absf main_arg4
  let main_cst_6 : FVec F S_ .f32 := constant S_ .f32 0x7F800000#32
  let main_v20 : FVec F S25x8 .f32 := broadcastInDim S25x8 ![] bcast_S_S25x8 main_cst_6
  let main_v21 : IVec S25x8 1 := cmpf .olt main_v19 main_v20
  let main_c_7 : IVec S_ 1 := constantI S_ 1 1#1
  let main_v22 : IVec S_ 1 := (fun x v => Host.reduce IntOp.andi x v reducesTo_S25x8_S_d0_1 h_S_) main_v21 main_c_7
  let main_v23 : IVec S_ 1 := andi main_v18 main_v22
  main_v23

def fn {F : FTy → Type} [FloatOps F] (main_arg0 : FVec F S16384x128x7 .f32) (main_arg1 : FVec F S16384x128 .f32) (main_arg2 : FVec F S16x5 .f32) (main_arg3 : FVec F S16 .f32) (main_arg4 : FVec F S25x8 .f32) : IVec S_ 1 :=
  let main_v0 : FVec F S16384x128x7 .f32 := Host.absf main_arg0
  let main_cst : FVec F S_ .f32 := constant S_ .f32 0x7F800000#32
  let main_v1 : FVec F S16384x128x7 .f32 := broadcastInDim S16384x128x7 ![] bcast_S_S16384x128x7 main_cst
  let main_v2 : IVec S16384x128x7 1 := cmpf .olt main_v0 main_v1
  let main_c : IVec S_ 1 := constantI S_ 1 1#1
  let main_v3 : IVec S_ 1 := (fun x v => Host.reduce IntOp.andi x v reducesTo_S16384x128x7_S_d0_1_2 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16x5 .f32 := Host.absf main_arg2
  let main_cst_2 : FVec F S_ .f32 := constant S_ .f32 0x7F800000#32
  let main_v10 : FVec F S16x5 .f32 := broadcastInDim S16x5 ![] bcast_S_S16x5 main_cst_2
  let main_v11 : IVec S16x5 1 := cmpf .olt main_v9 main_v10
  let main_c_3 : IVec S_ 1 := constantI S_ 1 1#1
  let main_v12 : IVec S_ 1 := (fun x v => Host.reduce IntOp.andi x v reducesTo_S16x5_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S16384x128x7 : Shape := ⟨3, ![16384, 128, 7]⟩
abbrev S16384x128 : Shape := ⟨2, ![16384, 128]⟩
abbrev S16x5 : Shape := ⟨2, ![16, 5]⟩
abbrev S16 : Shape := ⟨1, ![16]⟩
abbrev S25x8 : Shape := ⟨2, ![25, 8]⟩
abbrev S16384x7x128 : Shape := ⟨3, ![16384, 7, 128]⟩
abbrev S16384x24x128 : Shape := ⟨3, ![16384, 24, 128]⟩
abbrev S512x7x128 : Shape := ⟨3, ![512, 7, 128]⟩
abbrev S512x128 : Shape := ⟨2, ![512, 128]⟩
abbrev S512x24x128 : Shape := ⟨3, ![512, 24, 128]⟩
abbrev S512x1x128 : Shape := ⟨3, ![512, 1, 128]⟩
abbrev S1 : Shape := ⟨1, ![1]⟩
abbrev S1x1 : Shape := ⟨2, ![1, 1]⟩
abbrev S16384x128x24 : Shape := ⟨3, ![16384, 128, 24]⟩

abbrev nBuf : Space → Nat
  | .hbm => 8
  | .vmem => 9
  | .smem => 0
  | _ => 0

abbrev bufTy : (tb : Table) → Fin (tcTables nBuf tb) → BufTy
  | .hbm, ⟨0, _⟩ => ⟨S16384x128x7, .f32⟩
  | .hbm, ⟨1, _⟩ => ⟨S16384x128, .f32⟩
  | .hbm, ⟨2, _⟩ => ⟨S16x5, .f32⟩
  | .hbm, ⟨3, _⟩ => ⟨S16, .f32⟩
  | .hbm, ⟨4, _⟩ => ⟨S25x8, .f32⟩
  | .hbm, ⟨5, _⟩ => ⟨S16384x7x128, .f32⟩
  | .hbm, ⟨6, _⟩ => ⟨S16384x24x128, .f32⟩
  | .hbm, ⟨7, _⟩ => ⟨S16384x128x24, .f32⟩
  | .local _ .vmem, ⟨0, _⟩ => ⟨S512x7x128, .f32⟩
  | .local _ .vmem, ⟨1, _⟩ => ⟨S512x7x128, .f32⟩
  | .local _ .vmem, ⟨2, _⟩ => ⟨S512x128, .f32⟩
  | .local _ .vmem, ⟨3, _⟩ => ⟨S512x128, .f32⟩
  | .local _ .vmem, ⟨4, _⟩ => ⟨S16x5, .f32⟩
  | .local _ .vmem, ⟨5, _⟩ => ⟨S16, .f32⟩
  | .local _ .vmem, ⟨6, _⟩ => ⟨S25x8, .f32⟩
  | .local _ .vmem, ⟨7, _⟩ => ⟨S512x24x128, .f32⟩
  | .local _ .vmem, ⟨8, _⟩ => ⟨S512x24x128, .f32⟩
  | _, _ => ⟨S16384x128x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x7x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S25x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x24x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S16384x128x7_S16384x7x128_0_2_1 : S16384x128x7.Transposes [0, 2, 1] S16384x7x128
  inb_S512x128_S512x128_0_0 : ∀ a, (![0, 0] : Fin 2 → Nat) a + S512x128.size a ≤ S512x128.size a
  h_S512x128 : 0 < S512x128.numel
  inb_S512x7x128_S512x1x128_0_0_0 : ∀ a, (![0, 0, 0] : Fin 3 → Nat) a + S512x1x128.size a ≤ S512x7x128.size a
  h_S512x1x128 : 0 < S512x1x128.numel
  shapeCasts_S512x1x128_S512x128 : S512x1x128.ShapeCasts S512x128
  inb_S512x7x128_S512x1x128_0_1_0 : ∀ a, (![0, 1, 0] : Fin 3 → Nat) a + S512x1x128.size a ≤ S512x7x128.size a
  inb_S512x7x128_S512x1x128_0_2_0 : ∀ a, (![0, 2, 0] : Fin 3 → Nat) a + S512x1x128.size a ≤ S512x7x128.size a
  inb_S512x7x128_S512x1x128_0_3_0 : ∀ a, (![0, 3, 0] : Fin 3 → Nat) a + S512x1x128.size a ≤ S512x7x128.size a
  inb_S512x7x128_S512x1x128_0_4_0 : ∀ a, (![0, 4, 0] : Fin 3 → Nat) a + S512x1x128.size a ≤ S512x7x128.size a
  inb_S512x7x128_S512x1x128_0_5_0 : ∀ a, (![0, 5, 0] : Fin 3 → Nat) a + S512x1x128.size a ≤ S512x7x128.size a
  inb_S16_S1_0 : ∀ a, (![0] : Fin 1 → Nat) a + S1.size a ≤ S16.size a
  h_S1 : 0 < S1.numel
  inpos_S1_p0 : ∀ a, (![0] : Fin 1 → Nat) a < S1.size a
  inb_S16x5_S1x1_0_0 : ∀ a, (![0, 0] : Fin 2 → Nat) a + S1x1.size a ≤ S16x5.size a
  h_S1x1 : 0 < S1x1.numel
  inpos_S1x1_p0_0 : ∀ a, (![0, 0] : Fin 2 → Nat) a < S1x1.size a
  inb_S16x5_S1x1_0_1 : ∀ a, (![0, 1] : Fin 2 → Nat) a + S1x1.size a ≤ S16x5.size a
  inb_S16x5_S1x1_0_2 : ∀ a, (![0, 2] : Fin 2 → Nat) a + S1x1.size a ≤ S16x5.size a
  inb_S16x5_S1x1_0_3 : ∀ a, (![0, 3] : Fin 2 → Nat) a + S1x1.size a ≤ S16x5.size a
  inb_S16x5_S1x1_0_4 : ∀ a, (![0, 4] : Fin 2 → Nat) a + S1x1.size a ≤ S16x5.size a
  inb_S16_S1_1 : ∀ a, (![1] : Fin 1 → Nat) a + S1.size a ≤ S16.size a
  inb_S16x5_S1x1_1_0 : ∀ a, (![1, 0] : Fin 2 → Nat) a + S1x1.size a ≤ S16x5.size a
  inb_S16x5_S1x1_1_1 : ∀ a, (![1, 1] : Fin 2 → Nat) a + S1x1.size a ≤ S16x5.size a
  inb_S16x5_S1x1_1_2 : ∀ a, (![1, 2] : Fin 2 → Nat) a + S1x1.size a ≤ S16x5.size a
  inb_S16x5_S1x1_1_3 : ∀ a, (![1, 3] : Fin 2 → Nat) a + S1x1.size a ≤ S16x5.size a
  inb_S16x5_S1x1_1_4 : ∀ a, (![1, 4] : Fin 2 → Nat) a + S1x1.size a ≤ S16x5.size a
  inb_S16_S1_2 : ∀ a, (![2] : Fin 1 → Nat) a + S1.size a ≤ S16.size a
  inb_S16x5_S1x1_2_0 : ∀ a, (![2, 0] : Fin 2 → Nat) a + S1x1.size a ≤ S16x5.size a
  inb_S16x5_S1x1_2_1 : ∀ a, (![2, 1] : Fin 2 → Nat) a + S1x1.size a ≤ S16x5.size a
  inb_S16x5_S1x1_2_2 : ∀ a, (![2, 2] : Fin 2 → Nat) a + S1x1.size a ≤ S16x5.size a
  inb_S16x5_S1x1_2_3 : ∀ a, (![2, 3] : Fin 2 → Nat) a + S1x1.size a ≤ S16x5.size a
  inb_S16x5_S1x1_2_4 : ∀ a, (![2, 4] : Fin 2 → Nat) a + S1x1.size a ≤ S16x5.size a
  inb_S16_S1_3 : ∀ a, (![3] : Fin 1 → Nat) a + S1.size a ≤ S16.size a
  inb_S16x5_S1x1_3_0 : ∀ a, (![3, 0] : Fin 2 → Nat) a + S1x1.size a ≤ S16x5.size a
  inb_S16x5_S1x1_3_1 : ∀ a, (![3, 1] : Fin 2 → Nat) a + S1x1.size a ≤ S16x5.size a
  inb_S16x5_S1x1_3_2 : ∀ a, (![3, 2] : Fin 2 → Nat) a + S1x1.size a ≤ S16x5.size a
  inb_S16x5_S1x1_3_3 : ∀ a, (![3, 3] : Fin 2 → Nat) a + S1x1.size a ≤ S16x5.size a
  inb_S16x5_S1x1_3_4 : ∀ a, (![3, 4] : Fin 2 → Nat) a + S1x1.size a ≤ S16x5.size a
  inb_S16_S1_4 : ∀ a, (![4] : Fin 1 → Nat) a + S1.size a ≤ S16.size a
  inb_S16x5_S1x1_4_0 : ∀ a, (![4, 0] : Fin 2 → Nat) a + S1x1.size a ≤ S16x5.size a
  inb_S16x5_S1x1_4_1 : ∀ a, (![4, 1] : Fin 2 → Nat) a + S1x1.size a ≤ S16x5.size a
  inb_S16x5_S1x1_4_2 : ∀ a, (![4, 2] : Fin 2 → Nat) a + S1x1.size a ≤ S16x5.size a
  inb_S16x5_S1x1_4_3 : ∀ a, (![4, 3] : Fin 2 → Nat) a + S1x1.size a ≤ S16x5.size a
  inb_S16x5_S1x1_4_4 : ∀ a, (![4, 4] : Fin 2 → Nat) a + S1x1.size a ≤ S16x5.size a
  inb_S16_S1_5 : ∀ a, (![5] : Fin 1 → Nat) a + S1.size a ≤ S16.size a
  inb_S16x5_S1x1_5_0 : ∀ a, (![5, 0] : Fin 2 → Nat) a + S1x1.size a ≤ S16x5.size a
  inb_S16x5_S1x1_5_1 : ∀ a, (![5, 1] : Fin 2 → Nat) a + S1x1.size a ≤ S16x5.size a
  inb_S16x5_S1x1_5_2 : ∀ a, (![5, 2] : Fin 2 → Nat) a + S1x1.size a ≤ S16x5.size a
  inb_S16x5_S1x1_5_3 : ∀ a, (![5, 3] : Fin 2 → Nat) a + S1x1.size a ≤ S16x5.size a
  inb_S16x5_S1x1_5_4 : ∀ a, (![5, 4] : Fin 2 → Nat) a + S1x1.size a ≤ S16x5.size a
  inb_S16_S1_6 : ∀ a, (![6] : Fin 1 → Nat) a + S1.size a ≤ S16.size a
  inb_S16x5_S1x1_6_0 : ∀ a, (![6, 0] : Fin 2 → Nat) a + S1x1.size a ≤ S16x5.size a
  inb_S16x5_S1x1_6_1 : ∀ a, (![6, 1] : Fin 2 → Nat) a + S1x1.size a ≤ S16x5.size a
  inb_S16x5_S1x1_6_2 : ∀ a, (![6, 2] : Fin 2 → Nat) a + S1x1.size a ≤ S16x5.size a
  inb_S16x5_S1x1_6_3 : ∀ a, (![6, 3] : Fin 2 → Nat) a + S1x1.size a ≤ S16x5.size a
  inb_S16x5_S1x1_6_4 : ∀ a, (![6, 4] : Fin 2 → Nat) a + S1x1.size a ≤ S16x5.size a
  inb_S16_S1_7 : ∀ a, (![7] : Fin 1 → Nat) a + S1.size a ≤ S16.size a
  inb_S16x5_S1x1_7_0 : ∀ a, (![7, 0] : Fin 2 → Nat) a + S1x1.size a ≤ S16x5.size a
  inb_S16x5_S1x1_7_1 : ∀ a, (![7, 1] : Fin 2 → Nat) a + S1x1.size a ≤ S16x5.size a
  inb_S16x5_S1x1_7_2 : ∀ a, (![7, 2] : Fin 2 → Nat) a + S1x1.size a ≤ S16x5.size a
  inb_S16x5_S1x1_7_3 : ∀ a, (![7, 3] : Fin 2 → Nat) a + S1x1.size a ≤ S16x5.size a
  inb_S16x5_S1x1_7_4 : ∀ a, (![7, 4] : Fin 2 → Nat) a + S1x1.size a ≤ S16x5.size a
  inb_S16_S1_8 : ∀ a, (![8] : Fin 1 → Nat) a + S1.size a ≤ S16.size a
  inb_S16x5_S1x1_8_0 : ∀ a, (![8, 0] : Fin 2 → Nat) a + S1x1.size a ≤ S16x5.size a
  inb_S16x5_S1x1_8_1 : ∀ a, (![8, 1] : Fin 2 → Nat) a + S1x1.size a ≤ S16x5.size a
  inb_S16x5_S1x1_8_2 : ∀ a, (![8, 2] : Fin 2 → Nat) a + S1x1.size a ≤ S16x5.size a
  inb_S16x5_S1x1_8_3 : ∀ a, (![8, 3] : Fin 2 → Nat) a + S1x1.size a ≤ S16x5.size a
  inb_S16x5_S1x1_8_4 : ∀ a, (![8, 4] : Fin 2 → Nat) a + S1x1.size a ≤ S16x5.size a
  inb_S16_S1_9 : ∀ a, (![9] : Fin 1 → Nat) a + S1.size a ≤ S16.size a
  inb_S16x5_S1x1_9_0 : ∀ a, (![9, 0] : Fin 2 → Nat) a + S1x1.size a ≤ S16x5.size a
  inb_S16x5_S1x1_9_1 : ∀ a, (![9, 1] : Fin 2 → Nat) a + S1x1.size a ≤ S16x5.size a
  inb_S16x5_S1x1_9_2 : ∀ a, (![9, 2] : Fin 2 → Nat) a + S1x1.size a ≤ S16x5.size a
  inb_S16x5_S1x1_9_3 : ∀ a, (![9, 3] : Fin 2 → Nat) a + S1x1.size a ≤ S16x5.size a
  inb_S16x5_S1x1_9_4 : ∀ a, (![9, 4] : Fin 2 → Nat) a + S1x1.size a ≤ S16x5.size a
  inb_S16_S1_10 : ∀ a, (![10] : Fin 1 → Nat) a + S1.size a ≤ S16.size a
  inb_S16x5_S1x1_10_0 : ∀ a, (![10, 0] : Fin 2 → Nat) a + S1x1.size a ≤ S16x5.size a
  inb_S16x5_S1x1_10_1 : ∀ a, (![10, 1] : Fin 2 → Nat) a + S1x1.size a ≤ S16x5.size a
  inb_S16x5_S1x1_10_2 : ∀ a, (![10, 2] : Fin 2 → Nat) a + S1x1.size a ≤ S16x5.size a
  inb_S16x5_S1x1_10_3 : ∀ a, (![10, 3] : Fin 2 → Nat) a + S1x1.size a ≤ S16x5.size a
  inb_S16x5_S1x1_10_4 : ∀ a, (![10, 4] : Fin 2 → Nat) a + S1x1.size a ≤ S16x5.size a
  inb_S16_S1_11 : ∀ a, (![11] : Fin 1 → Nat) a + S1.size a ≤ S16.size a
  inb_S16x5_S1x1_11_0 : ∀ a, (![11, 0] : Fin 2 → Nat) a + S1x1.size a ≤ S16x5.size a
  inb_S16x5_S1x1_11_1 : ∀ a, (![11, 1] : Fin 2 → Nat) a + S1x1.size a ≤ S16x5.size a
  inb_S16x5_S1x1_11_2 : ∀ a, (![11, 2] : Fin 2 → Nat) a + S1x1.size a ≤ S16x5.size a
  inb_S16x5_S1x1_11_3 : ∀ a, (![11, 3] : Fin 2 → Nat) a + S1x1.size a ≤ S16x5.size a
  inb_S16x5_S1x1_11_4 : ∀ a, (![11, 4] : Fin 2 → Nat) a + S1x1.size a ≤ S16x5.size a
  inb_S16_S1_12 : ∀ a, (![12] : Fin 1 → Nat) a + S1.size a ≤ S16.size a
  inb_S16x5_S1x1_12_0 : ∀ a, (![12, 0] : Fin 2 → Nat) a + S1x1.size a ≤ S16x5.size a
  inb_S16x5_S1x1_12_1 : ∀ a, (![12, 1] : Fin 2 → Nat) a + S1x1.size a ≤ S16x5.size a
  inb_S16x5_S1x1_12_2 : ∀ a, (![12, 2] : Fin 2 → Nat) a + S1x1.size a ≤ S16x5.size a
  inb_S16x5_S1x1_12_3 : ∀ a, (![12, 3] : Fin 2 → Nat) a + S1x1.size a ≤ S16x5.size a
  inb_S16x5_S1x1_12_4 : ∀ a, (![12, 4] : Fin 2 → Nat) a + S1x1.size a ≤ S16x5.size a
  inb_S16_S1_13 : ∀ a, (![13] : Fin 1 → Nat) a + S1.size a ≤ S16.size a
  inb_S16x5_S1x1_13_0 : ∀ a, (![13, 0] : Fin 2 → Nat) a + S1x1.size a ≤ S16x5.size a
  inb_S16x5_S1x1_13_1 : ∀ a, (![13, 1] : Fin 2 → Nat) a + S1x1.size a ≤ S16x5.size a
  inb_S16x5_S1x1_13_2 : ∀ a, (![13, 2] : Fin 2 → Nat) a + S1x1.size a ≤ S16x5.size a
  inb_S16x5_S1x1_13_3 : ∀ a, (![13, 3] : Fin 2 → Nat) a + S1x1.size a ≤ S16x5.size a
  inb_S16x5_S1x1_13_4 : ∀ a, (![13, 4] : Fin 2 → Nat) a + S1x1.size a ≤ S16x5.size a
  inb_S16_S1_14 : ∀ a, (![14] : Fin 1 → Nat) a + S1.size a ≤ S16.size a
  inb_S16x5_S1x1_14_0 : ∀ a, (![14, 0] : Fin 2 → Nat) a + S1x1.size a ≤ S16x5.size a
  inb_S16x5_S1x1_14_1 : ∀ a, (![14, 1] : Fin 2 → Nat) a + S1x1.size a ≤ S16x5.size a
  inb_S16x5_S1x1_14_2 : ∀ a, (![14, 2] : Fin 2 → Nat) a + S1x1.size a ≤ S16x5.size a
  inb_S16x5_S1x1_14_3 : ∀ a, (![14, 3] : Fin 2 → Nat) a + S1x1.size a ≤ S16x5.size a
  inb_S16x5_S1x1_14_4 : ∀ a, (![14, 4] : Fin 2 → Nat) a + S1x1.size a ≤ S16x5.size a
  inb_S16_S1_15 : ∀ a, (![15] : Fin 1 → Nat) a + S1.size a ≤ S16.size a
  inb_S16x5_S1x1_15_0 : ∀ a, (![15, 0] : Fin 2 → Nat) a + S1x1.size a ≤ S16x5.size a
  inb_S16x5_S1x1_15_1 : ∀ a, (![15, 1] : Fin 2 → Nat) a + S1x1.size a ≤ S16x5.size a
  inb_S16x5_S1x1_15_2 : ∀ a, (![15, 2] : Fin 2 → Nat) a + S1x1.size a ≤ S16x5.size a
  inb_S16x5_S1x1_15_3 : ∀ a, (![15, 3] : Fin 2 → Nat) a + S1x1.size a ≤ S16x5.size a
  inb_S16x5_S1x1_15_4 : ∀ a, (![15, 4] : Fin 2 → Nat) a + S1x1.size a ≤ S16x5.size a
  natLt_1_32 : 1 < 32
  inb_S25x8_S1x1_0_0 : ∀ a, (![0, 0] : Fin 2 → Nat) a + S1x1.size a ≤ S25x8.size a
  inb_S25x8_S1x1_0_1 : ∀ a, (![0, 1] : Fin 2 → Nat) a + S1x1.size a ≤ S25x8.size a
  inb_S25x8_S1x1_0_2 : ∀ a, (![0, 2] : Fin 2 → Nat) a + S1x1.size a ≤ S25x8.size a
  inb_S25x8_S1x1_0_3 : ∀ a, (![0, 3] : Fin 2 → Nat) a + S1x1.size a ≤ S25x8.size a
  inb_S25x8_S1x1_0_4 : ∀ a, (![0, 4] : Fin 2 → Nat) a + S1x1.size a ≤ S25x8.size a
  inb_S25x8_S1x1_0_5 : ∀ a, (![0, 5] : Fin 2 → Nat) a + S1x1.size a ≤ S25x8.size a
  inb_S25x8_S1x1_0_6 : ∀ a, (![0, 6] : Fin 2 → Nat) a + S1x1.size a ≤ S25x8.size a
  inb_S25x8_S1x1_0_7 : ∀ a, (![0, 7] : Fin 2 → Nat) a + S1x1.size a ≤ S25x8.size a
  inb_S25x8_S1x1_1_0 : ∀ a, (![1, 0] : Fin 2 → Nat) a + S1x1.size a ≤ S25x8.size a
  inb_S25x8_S1x1_1_1 : ∀ a, (![1, 1] : Fin 2 → Nat) a + S1x1.size a ≤ S25x8.size a
  inb_S25x8_S1x1_1_2 : ∀ a, (![1, 2] : Fin 2 → Nat) a + S1x1.size a ≤ S25x8.size a
  inb_S25x8_S1x1_1_3 : ∀ a, (![1, 3] : Fin 2 → Nat) a + S1x1.size a ≤ S25x8.size a
  inb_S25x8_S1x1_1_4 : ∀ a, (![1, 4] : Fin 2 → Nat) a + S1x1.size a ≤ S25x8.size a
  inb_S25x8_S1x1_1_5 : ∀ a, (![1, 5] : Fin 2 → Nat) a + S1x1.size a ≤ S25x8.size a
  inb_S25x8_S1x1_1_6 : ∀ a, (![1, 6] : Fin 2 → Nat) a + S1x1.size a ≤ S25x8.size a
  inb_S25x8_S1x1_1_7 : ∀ a, (![1, 7] : Fin 2 → Nat) a + S1x1.size a ≤ S25x8.size a
  inb_S25x8_S1x1_2_0 : ∀ a, (![2, 0] : Fin 2 → Nat) a + S1x1.size a ≤ S25x8.size a
  inb_S25x8_S1x1_2_1 : ∀ a, (![2, 1] : Fin 2 → Nat) a + S1x1.size a ≤ S25x8.size a
  inb_S25x8_S1x1_2_2 : ∀ a, (![2, 2] : Fin 2 → Nat) a + S1x1.size a ≤ S25x8.size a
  inb_S25x8_S1x1_2_3 : ∀ a, (![2, 3] : Fin 2 → Nat) a + S1x1.size a ≤ S25x8.size a
  inb_S25x8_S1x1_2_4 : ∀ a, (![2, 4] : Fin 2 → Nat) a + S1x1.size a ≤ S25x8.size a
  inb_S25x8_S1x1_2_5 : ∀ a, (![2, 5] : Fin 2 → Nat) a + S1x1.size a ≤ S25x8.size a
  inb_S25x8_S1x1_2_6 : ∀ a, (![2, 6] : Fin 2 → Nat) a + S1x1.size a ≤ S25x8.size a
  inb_S25x8_S1x1_2_7 : ∀ a, (![2, 7] : Fin 2 → Nat) a + S1x1.size a ≤ S25x8.size a
  inb_S25x8_S1x1_3_0 : ∀ a, (![3, 0] : Fin 2 → Nat) a + S1x1.size a ≤ S25x8.size a
  inb_S25x8_S1x1_3_1 : ∀ a, (![3, 1] : Fin 2 → Nat) a + S1x1.size a ≤ S25x8.size a
  inb_S25x8_S1x1_3_2 : ∀ a, (![3, 2] : Fin 2 → Nat) a + S1x1.size a ≤ S25x8.size a
  inb_S25x8_S1x1_3_3 : ∀ a, (![3, 3] : Fin 2 → Nat) a + S1x1.size a ≤ S25x8.size a
  inb_S25x8_S1x1_3_4 : ∀ a, (![3, 4] : Fin 2 → Nat) a + S1x1.size a ≤ S25x8.size a
  inb_S25x8_S1x1_3_5 : ∀ a, (![3, 5] : Fin 2 → Nat) a + S1x1.size a ≤ S25x8.size a
  inb_S25x8_S1x1_3_6 : ∀ a, (![3, 6] : Fin 2 → Nat) a + S1x1.size a ≤ S25x8.size a
  inb_S25x8_S1x1_3_7 : ∀ a, (![3, 7] : Fin 2 → Nat) a + S1x1.size a ≤ S25x8.size a
  inb_S25x8_S1x1_4_0 : ∀ a, (![4, 0] : Fin 2 → Nat) a + S1x1.size a ≤ S25x8.size a
  inb_S25x8_S1x1_4_1 : ∀ a, (![4, 1] : Fin 2 → Nat) a + S1x1.size a ≤ S25x8.size a
  inb_S25x8_S1x1_4_2 : ∀ a, (![4, 2] : Fin 2 → Nat) a + S1x1.size a ≤ S25x8.size a
  inb_S25x8_S1x1_4_3 : ∀ a, (![4, 3] : Fin 2 → Nat) a + S1x1.size a ≤ S25x8.size a
  inb_S25x8_S1x1_4_4 : ∀ a, (![4, 4] : Fin 2 → Nat) a + S1x1.size a ≤ S25x8.size a
  inb_S25x8_S1x1_4_5 : ∀ a, (![4, 5] : Fin 2 → Nat) a + S1x1.size a ≤ S25x8.size a
  inb_S25x8_S1x1_4_6 : ∀ a, (![4, 6] : Fin 2 → Nat) a + S1x1.size a ≤ S25x8.size a
  inb_S25x8_S1x1_4_7 : ∀ a, (![4, 7] : Fin 2 → Nat) a + S1x1.size a ≤ S25x8.size a
  inb_S25x8_S1x1_5_0 : ∀ a, (![5, 0] : Fin 2 → Nat) a + S1x1.size a ≤ S25x8.size a
  inb_S25x8_S1x1_5_1 : ∀ a, (![5, 1] : Fin 2 → Nat) a + S1x1.size a ≤ S25x8.size a
  inb_S25x8_S1x1_5_2 : ∀ a, (![5, 2] : Fin 2 → Nat) a + S1x1.size a ≤ S25x8.size a
  inb_S25x8_S1x1_5_3 : ∀ a, (![5, 3] : Fin 2 → Nat) a + S1x1.size a ≤ S25x8.size a
  inb_S25x8_S1x1_5_4 : ∀ a, (![5, 4] : Fin 2 → Nat) a + S1x1.size a ≤ S25x8.size a
  inb_S25x8_S1x1_5_5 : ∀ a, (![5, 5] : Fin 2 → Nat) a + S1x1.size a ≤ S25x8.size a
  inb_S25x8_S1x1_5_6 : ∀ a, (![5, 6] : Fin 2 → Nat) a + S1x1.size a ≤ S25x8.size a
  inb_S25x8_S1x1_5_7 : ∀ a, (![5, 7] : Fin 2 → Nat) a + S1x1.size a ≤ S25x8.size a
  inb_S25x8_S1x1_6_0 : ∀ a, (![6, 0] : Fin 2 → Nat) a + S1x1.size a ≤ S25x8.size a
  inb_S25x8_S1x1_6_1 : ∀ a, (![6, 1] : Fin 2 → Nat) a + S1x1.size a ≤ S25x8.size a
  inb_S25x8_S1x1_6_2 : ∀ a, (![6, 2] : Fin 2 → Nat) a + S1x1.size a ≤ S25x8.size a
  inb_S25x8_S1x1_6_3 : ∀ a, (![6, 3] : Fin 2 → Nat) a + S1x1.size a ≤ S25x8.size a
  inb_S25x8_S1x1_6_4 : ∀ a, (![6, 4] : Fin 2 → Nat) a + S1x1.size a ≤ S25x8.size a
  inb_S25x8_S1x1_6_5 : ∀ a, (![6, 5] : Fin 2 → Nat) a + S1x1.size a ≤ S25x8.size a
  inb_S25x8_S1x1_6_6 : ∀ a, (![6, 6] : Fin 2 → Nat) a + S1x1.size a ≤ S25x8.size a
  inb_S25x8_S1x1_6_7 : ∀ a, (![6, 7] : Fin 2 → Nat) a + S1x1.size a ≤ S25x8.size a
  inb_S25x8_S1x1_7_0 : ∀ a, (![7, 0] : Fin 2 → Nat) a + S1x1.size a ≤ S25x8.size a
  inb_S25x8_S1x1_7_1 : ∀ a, (![7, 1] : Fin 2 → Nat) a + S1x1.size a ≤ S25x8.size a
  inb_S25x8_S1x1_7_2 : ∀ a, (![7, 2] : Fin 2 → Nat) a + S1x1.size a ≤ S25x8.size a
  inb_S25x8_S1x1_7_3 : ∀ a, (![7, 3] : Fin 2 → Nat) a + S1x1.size a ≤ S25x8.size a
  inb_S25x8_S1x1_7_4 : ∀ a, (![7, 4] : Fin 2 → Nat) a + S1x1.size a ≤ S25x8.size a
  inb_S25x8_S1x1_7_5 : ∀ a, (![7, 5] : Fin 2 → Nat) a + S1x1.size a ≤ S25x8.size a
  inb_S25x8_S1x1_7_6 : ∀ a, (![7, 6] : Fin 2 → Nat) a + S1x1.size a ≤ S25x8.size a
  inb_S25x8_S1x1_7_7 : ∀ a, (![7, 7] : Fin 2 → Nat) a + S1x1.size a ≤ S25x8.size a
  inb_S25x8_S1x1_8_0 : ∀ a, (![8, 0] : Fin 2 → Nat) a + S1x1.size a ≤ S25x8.size a
  inb_S25x8_S1x1_8_1 : ∀ a, (![8, 1] : Fin 2 → Nat) a + S1x1.size a ≤ S25x8.size a
  inb_S25x8_S1x1_8_2 : ∀ a, (![8, 2] : Fin 2 → Nat) a + S1x1.size a ≤ S25x8.size a
  inb_S25x8_S1x1_8_3 : ∀ a, (![8, 3] : Fin 2 → Nat) a + S1x1.size a ≤ S25x8.size a
  inb_S25x8_S1x1_8_4 : ∀ a, (![8, 4] : Fin 2 → Nat) a + S1x1.size a ≤ S25x8.size a
  inb_S25x8_S1x1_8_5 : ∀ a, (![8, 5] : Fin 2 → Nat) a + S1x1.size a ≤ S25x8.size a
  inb_S25x8_S1x1_8_6 : ∀ a, (![8, 6] : Fin 2 → Nat) a + S1x1.size a ≤ S25x8.size a
  inb_S25x8_S1x1_8_7 : ∀ a, (![8, 7] : Fin 2 → Nat) a + S1x1.size a ≤ S25x8.size a
  inb_S25x8_S1x1_9_0 : ∀ a, (![9, 0] : Fin 2 → Nat) a + S1x1.size a ≤ S25x8.size a
  inb_S25x8_S1x1_9_1 : ∀ a, (![9, 1] : Fin 2 → Nat) a + S1x1.size a ≤ S25x8.size a
  inb_S25x8_S1x1_9_2 : ∀ a, (![9, 2] : Fin 2 → Nat) a + S1x1.size a ≤ S25x8.size a
  inb_S25x8_S1x1_9_3 : ∀ a, (![9, 3] : Fin 2 → Nat) a + S1x1.size a ≤ S25x8.size a
  inb_S25x8_S1x1_9_4 : ∀ a, (![9, 4] : Fin 2 → Nat) a + S1x1.size a ≤ S25x8.size a
  inb_S25x8_S1x1_9_5 : ∀ a, (![9, 5] : Fin 2 → Nat) a + S1x1.size a ≤ S25x8.size a
  inb_S25x8_S1x1_9_6 : ∀ a, (![9, 6] : Fin 2 → Nat) a + S1x1.size a ≤ S25x8.size a
  inb_S25x8_S1x1_9_7 : ∀ a, (![9, 7] : Fin 2 → Nat) a + S1x1.size a ≤ S25x8.size a
  inb_S25x8_S1x1_10_0 : ∀ a, (![10, 0] : Fin 2 → Nat) a + S1x1.size a ≤ S25x8.size a
  inb_S25x8_S1x1_10_1 : ∀ a, (![10, 1] : Fin 2 → Nat) a + S1x1.size a ≤ S25x8.size a
  inb_S25x8_S1x1_10_2 : ∀ a, (![10, 2] : Fin 2 → Nat) a + S1x1.size a ≤ S25x8.size a
  inb_S25x8_S1x1_10_3 : ∀ a, (![10, 3] : Fin 2 → Nat) a + S1x1.size a ≤ S25x8.size a
  inb_S25x8_S1x1_10_4 : ∀ a, (![10, 4] : Fin 2 → Nat) a + S1x1.size a ≤ S25x8.size a
  inb_S25x8_S1x1_10_5 : ∀ a, (![10, 5] : Fin 2 → Nat) a + S1x1.size a ≤ S25x8.size a
  inb_S25x8_S1x1_10_6 : ∀ a, (![10, 6] : Fin 2 → Nat) a + S1x1.size a ≤ S25x8.size a
  inb_S25x8_S1x1_10_7 : ∀ a, (![10, 7] : Fin 2 → Nat) a + S1x1.size a ≤ S25x8.size a
  inb_S25x8_S1x1_11_0 : ∀ a, (![11, 0] : Fin 2 → Nat) a + S1x1.size a ≤ S25x8.size a
  inb_S25x8_S1x1_11_1 : ∀ a, (![11, 1] : Fin 2 → Nat) a + S1x1.size a ≤ S25x8.size a
  inb_S25x8_S1x1_11_2 : ∀ a, (![11, 2] : Fin 2 → Nat) a + S1x1.size a ≤ S25x8.size a
  inb_S25x8_S1x1_11_3 : ∀ a, (![11, 3] : Fin 2 → Nat) a + S1x1.size a ≤ S25x8.size a
  inb_S25x8_S1x1_11_4 : ∀ a, (![11, 4] : Fin 2 → Nat) a + S1x1.size a ≤ S25x8.size a
  inb_S25x8_S1x1_11_5 : ∀ a, (![11, 5] : Fin 2 → Nat) a + S1x1.size a ≤ S25x8.size a
  inb_S25x8_S1x1_11_6 : ∀ a, (![11, 6] : Fin 2 → Nat) a + S1x1.size a ≤ S25x8.size a
  inb_S25x8_S1x1_11_7 : ∀ a, (![11, 7] : Fin 2 → Nat) a + S1x1.size a ≤ S25x8.size a
  inb_S25x8_S1x1_12_0 : ∀ a, (![12, 0] : Fin 2 → Nat) a + S1x1.size a ≤ S25x8.size a
  inb_S25x8_S1x1_12_1 : ∀ a, (![12, 1] : Fin 2 → Nat) a + S1x1.size a ≤ S25x8.size a
  inb_S25x8_S1x1_12_2 : ∀ a, (![12, 2] : Fin 2 → Nat) a + S1x1.size a ≤ S25x8.size a
  inb_S25x8_S1x1_12_3 : ∀ a, (![12, 3] : Fin 2 → Nat) a + S1x1.size a ≤ S25x8.size a
  inb_S25x8_S1x1_12_4 : ∀ a, (![12, 4] : Fin 2 → Nat) a + S1x1.size a ≤ S25x8.size a
  inb_S25x8_S1x1_12_5 : ∀ a, (![12, 5] : Fin 2 → Nat) a + S1x1.size a ≤ S25x8.size a
  inb_S25x8_S1x1_12_6 : ∀ a, (![12, 6] : Fin 2 → Nat) a + S1x1.size a ≤ S25x8.size a
  inb_S25x8_S1x1_12_7 : ∀ a, (![12, 7] : Fin 2 → Nat) a + S1x1.size a ≤ S25x8.size a
  inb_S25x8_S1x1_13_0 : ∀ a, (![13, 0] : Fin 2 → Nat) a + S1x1.size a ≤ S25x8.size a
  inb_S25x8_S1x1_13_1 : ∀ a, (![13, 1] : Fin 2 → Nat) a + S1x1.size a ≤ S25x8.size a
  inb_S25x8_S1x1_13_2 : ∀ a, (![13, 2] : Fin 2 → Nat) a + S1x1.size a ≤ S25x8.size a
  inb_S25x8_S1x1_13_3 : ∀ a, (![13, 3] : Fin 2 → Nat) a + S1x1.size a ≤ S25x8.size a
  inb_S25x8_S1x1_13_4 : ∀ a, (![13, 4] : Fin 2 → Nat) a + S1x1.size a ≤ S25x8.size a
  inb_S25x8_S1x1_13_5 : ∀ a, (![13, 5] : Fin 2 → Nat) a + S1x1.size a ≤ S25x8.size a
  inb_S25x8_S1x1_13_6 : ∀ a, (![13, 6] : Fin 2 → Nat) a + S1x1.size a ≤ S25x8.size a
  inb_S25x8_S1x1_13_7 : ∀ a, (![13, 7] : Fin 2 → Nat) a + S1x1.size a ≤ S25x8.size a
  inb_S25x8_S1x1_14_0 : ∀ a, (![14, 0] : Fin 2 → Nat) a + S1x1.size a ≤ S25x8.size a
  inb_S25x8_S1x1_14_1 : ∀ a, (![14, 1] : Fin 2 → Nat) a + S1x1.size a ≤ S25x8.size a
  inb_S25x8_S1x1_14_2 : ∀ a, (![14, 2] : Fin 2 → Nat) a + S1x1.size a ≤ S25x8.size a
  inb_S25x8_S1x1_14_3 : ∀ a, (![14, 3] : Fin 2 → Nat) a + S1x1.size a ≤ S25x8.size a
  inb_S25x8_S1x1_14_4 : ∀ a, (![14, 4] : Fin 2 → Nat) a + S1x1.size a ≤ S25x8.size a
  inb_S25x8_S1x1_14_5 : ∀ a, (![14, 5] : Fin 2 → Nat) a + S1x1.size a ≤ S25x8.size a
  inb_S25x8_S1x1_14_6 : ∀ a, (![14, 6] : Fin 2 → Nat) a + S1x1.size a ≤ S25x8.size a
  inb_S25x8_S1x1_14_7 : ∀ a, (![14, 7] : Fin 2 → Nat) a + S1x1.size a ≤ S25x8.size a
  inb_S25x8_S1x1_15_0 : ∀ a, (![15, 0] : Fin 2 → Nat) a + S1x1.size a ≤ S25x8.size a
  inb_S25x8_S1x1_15_1 : ∀ a, (![15, 1] : Fin 2 → Nat) a + S1x1.size a ≤ S25x8.size a
  inb_S25x8_S1x1_15_2 : ∀ a, (![15, 2] : Fin 2 → Nat) a + S1x1.size a ≤ S25x8.size a
  inb_S25x8_S1x1_15_3 : ∀ a, (![15, 3] : Fin 2 → Nat) a + S1x1.size a ≤ S25x8.size a
  inb_S25x8_S1x1_15_4 : ∀ a, (![15, 4] : Fin 2 → Nat) a + S1x1.size a ≤ S25x8.size a
  inb_S25x8_S1x1_15_5 : ∀ a, (![15, 5] : Fin 2 → Nat) a + S1x1.size a ≤ S25x8.size a
  inb_S25x8_S1x1_15_6 : ∀ a, (![15, 6] : Fin 2 → Nat) a + S1x1.size a ≤ S25x8.size a
  inb_S25x8_S1x1_15_7 : ∀ a, (![15, 7] : Fin 2 → Nat) a + S1x1.size a ≤ S25x8.size a
  inb_S25x8_S1x1_16_0 : ∀ a, (![16, 0] : Fin 2 → Nat) a + S1x1.size a ≤ S25x8.size a
  inb_S25x8_S1x1_16_1 : ∀ a, (![16, 1] : Fin 2 → Nat) a + S1x1.size a ≤ S25x8.size a
  inb_S25x8_S1x1_16_2 : ∀ a, (![16, 2] : Fin 2 → Nat) a + S1x1.size a ≤ S25x8.size a
  inb_S25x8_S1x1_16_3 : ∀ a, (![16, 3] : Fin 2 → Nat) a + S1x1.size a ≤ S25x8.size a
  inb_S25x8_S1x1_16_4 : ∀ a, (![16, 4] : Fin 2 → Nat) a + S1x1.size a ≤ S25x8.size a
  inb_S25x8_S1x1_16_5 : ∀ a, (![16, 5] : Fin 2 → Nat) a + S1x1.size a ≤ S25x8.size a
  inb_S25x8_S1x1_16_6 : ∀ a, (![16, 6] : Fin 2 → Nat) a + S1x1.size a ≤ S25x8.size a
  inb_S25x8_S1x1_16_7 : ∀ a, (![16, 7] : Fin 2 → Nat) a + S1x1.size a ≤ S25x8.size a
  inb_S25x8_S1x1_17_0 : ∀ a, (![17, 0] : Fin 2 → Nat) a + S1x1.size a ≤ S25x8.size a
  inb_S25x8_S1x1_17_1 : ∀ a, (![17, 1] : Fin 2 → Nat) a + S1x1.size a ≤ S25x8.size a
  inb_S25x8_S1x1_17_2 : ∀ a, (![17, 2] : Fin 2 → Nat) a + S1x1.size a ≤ S25x8.size a
  inb_S25x8_S1x1_17_3 : ∀ a, (![17, 3] : Fin 2 → Nat) a + S1x1.size a ≤ S25x8.size a
  inb_S25x8_S1x1_17_4 : ∀ a, (![17, 4] : Fin 2 → Nat) a + S1x1.size a ≤ S25x8.size a
  inb_S25x8_S1x1_17_5 : ∀ a, (![17, 5] : Fin 2 → Nat) a + S1x1.size a ≤ S25x8.size a
  inb_S25x8_S1x1_17_6 : ∀ a, (![17, 6] : Fin 2 → Nat) a + S1x1.size a ≤ S25x8.size a
  inb_S25x8_S1x1_17_7 : ∀ a, (![17, 7] : Fin 2 → Nat) a + S1x1.size a ≤ S25x8.size a
  inb_S25x8_S1x1_18_0 : ∀ a, (![18, 0] : Fin 2 → Nat) a + S1x1.size a ≤ S25x8.size a
  inb_S25x8_S1x1_18_1 : ∀ a, (![18, 1] : Fin 2 → Nat) a + S1x1.size a ≤ S25x8.size a
  inb_S25x8_S1x1_18_2 : ∀ a, (![18, 2] : Fin 2 → Nat) a + S1x1.size a ≤ S25x8.size a
  inb_S25x8_S1x1_18_3 : ∀ a, (![18, 3] : Fin 2 → Nat) a + S1x1.size a ≤ S25x8.size a
  inb_S25x8_S1x1_18_4 : ∀ a, (![18, 4] : Fin 2 → Nat) a + S1x1.size a ≤ S25x8.size a
  inb_S25x8_S1x1_18_5 : ∀ a, (![18, 5] : Fin 2 → Nat) a + S1x1.size a ≤ S25x8.size a
  inb_S25x8_S1x1_18_6 : ∀ a, (![18, 6] : Fin 2 → Nat) a + S1x1.size a ≤ S25x8.size a
  inb_S25x8_S1x1_18_7 : ∀ a, (![18, 7] : Fin 2 → Nat) a + S1x1.size a ≤ S25x8.size a
  inb_S25x8_S1x1_19_0 : ∀ a, (![19, 0] : Fin 2 → Nat) a + S1x1.size a ≤ S25x8.size a
  inb_S25x8_S1x1_19_1 : ∀ a, (![19, 1] : Fin 2 → Nat) a + S1x1.size a ≤ S25x8.size a
  inb_S25x8_S1x1_19_2 : ∀ a, (![19, 2] : Fin 2 → Nat) a + S1x1.size a ≤ S25x8.size a
  inb_S25x8_S1x1_19_3 : ∀ a, (![19, 3] : Fin 2 → Nat) a + S1x1.size a ≤ S25x8.size a
  inb_S25x8_S1x1_19_4 : ∀ a, (![19, 4] : Fin 2 → Nat) a + S1x1.size a ≤ S25x8.size a
  inb_S25x8_S1x1_19_5 : ∀ a, (![19, 5] : Fin 2 → Nat) a + S1x1.size a ≤ S25x8.size a
  inb_S25x8_S1x1_19_6 : ∀ a, (![19, 6] : Fin 2 → Nat) a + S1x1.size a ≤ S25x8.size a
  inb_S25x8_S1x1_19_7 : ∀ a, (![19, 7] : Fin 2 → Nat) a + S1x1.size a ≤ S25x8.size a
  inb_S25x8_S1x1_20_0 : ∀ a, (![20, 0] : Fin 2 → Nat) a + S1x1.size a ≤ S25x8.size a
  inb_S25x8_S1x1_20_1 : ∀ a, (![20, 1] : Fin 2 → Nat) a + S1x1.size a ≤ S25x8.size a
  inb_S25x8_S1x1_20_2 : ∀ a, (![20, 2] : Fin 2 → Nat) a + S1x1.size a ≤ S25x8.size a
  inb_S25x8_S1x1_20_3 : ∀ a, (![20, 3] : Fin 2 → Nat) a + S1x1.size a ≤ S25x8.size a
  inb_S25x8_S1x1_20_4 : ∀ a, (![20, 4] : Fin 2 → Nat) a + S1x1.size a ≤ S25x8.size a
  inb_S25x8_S1x1_20_5 : ∀ a, (![20, 5] : Fin 2 → Nat) a + S1x1.size a ≤ S25x8.size a
  inb_S25x8_S1x1_20_6 : ∀ a, (![20, 6] : Fin 2 → Nat) a + S1x1.size a ≤ S25x8.size a
  inb_S25x8_S1x1_20_7 : ∀ a, (![20, 7] : Fin 2 → Nat) a + S1x1.size a ≤ S25x8.size a
  inb_S25x8_S1x1_21_0 : ∀ a, (![21, 0] : Fin 2 → Nat) a + S1x1.size a ≤ S25x8.size a
  inb_S25x8_S1x1_21_1 : ∀ a, (![21, 1] : Fin 2 → Nat) a + S1x1.size a ≤ S25x8.size a
  inb_S25x8_S1x1_21_2 : ∀ a, (![21, 2] : Fin 2 → Nat) a + S1x1.size a ≤ S25x8.size a
  inb_S25x8_S1x1_21_3 : ∀ a, (![21, 3] : Fin 2 → Nat) a + S1x1.size a ≤ S25x8.size a
  inb_S25x8_S1x1_21_4 : ∀ a, (![21, 4] : Fin 2 → Nat) a + S1x1.size a ≤ S25x8.size a
  inb_S25x8_S1x1_21_5 : ∀ a, (![21, 5] : Fin 2 → Nat) a + S1x1.size a ≤ S25x8.size a
  inb_S25x8_S1x1_21_6 : ∀ a, (![21, 6] : Fin 2 → Nat) a + S1x1.size a ≤ S25x8.size a
  inb_S25x8_S1x1_21_7 : ∀ a, (![21, 7] : Fin 2 → Nat) a + S1x1.size a ≤ S25x8.size a
  inb_S25x8_S1x1_22_0 : ∀ a, (![22, 0] : Fin 2 → Nat) a + S1x1.size a ≤ S25x8.size a
  inb_S25x8_S1x1_22_1 : ∀ a, (![22, 1] : Fin 2 → Nat) a + S1x1.size a ≤ S25x8.size a
  inb_S25x8_S1x1_22_2 : ∀ a, (![22, 2] : Fin 2 → Nat) a + S1x1.size a ≤ S25x8.size a
  inb_S25x8_S1x1_22_3 : ∀ a, (![22, 3] : Fin 2 → Nat) a + S1x1.size a ≤ S25x8.size a
  inb_S25x8_S1x1_22_4 : ∀ a, (![22, 4] : Fin 2 → Nat) a + S1x1.size a ≤ S25x8.size a
  inb_S25x8_S1x1_22_5 : ∀ a, (![22, 5] : Fin 2 → Nat) a + S1x1.size a ≤ S25x8.size a
  inb_S25x8_S1x1_22_6 : ∀ a, (![22, 6] : Fin 2 → Nat) a + S1x1.size a ≤ S25x8.size a
  inb_S25x8_S1x1_22_7 : ∀ a, (![22, 7] : Fin 2 → Nat) a + S1x1.size a ≤ S25x8.size a
  inb_S25x8_S1x1_23_0 : ∀ a, (![23, 0] : Fin 2 → Nat) a + S1x1.size a ≤ S25x8.size a
  inb_S25x8_S1x1_23_1 : ∀ a, (![23, 1] : Fin 2 → Nat) a + S1x1.size a ≤ S25x8.size a
  inb_S25x8_S1x1_23_2 : ∀ a, (![23, 2] : Fin 2 → Nat) a + S1x1.size a ≤ S25x8.size a
  inb_S25x8_S1x1_23_3 : ∀ a, (![23, 3] : Fin 2 → Nat) a + S1x1.size a ≤ S25x8.size a
  inb_S25x8_S1x1_23_4 : ∀ a, (![23, 4] : Fin 2 → Nat) a + S1x1.size a ≤ S25x8.size a
  inb_S25x8_S1x1_23_5 : ∀ a, (![23, 5] : Fin 2 → Nat) a + S1x1.size a ≤ S25x8.size a
  inb_S25x8_S1x1_23_6 : ∀ a, (![23, 6] : Fin 2 → Nat) a + S1x1.size a ≤ S25x8.size a
  inb_S25x8_S1x1_23_7 : ∀ a, (![23, 7] : Fin 2 → Nat) a + S1x1.size a ≤ S25x8.size a
  inb_S25x8_S1x1_24_0 : ∀ a, (![24, 0] : Fin 2 → Nat) a + S1x1.size a ≤ S25x8.size a
  inb_S25x8_S1x1_24_1 : ∀ a, (![24, 1] : Fin 2 → Nat) a + S1x1.size a ≤ S25x8.size a
  inb_S25x8_S1x1_24_2 : ∀ a, (![24, 2] : Fin 2 → Nat) a + S1x1.size a ≤ S25x8.size a
  inb_S25x8_S1x1_24_3 : ∀ a, (![24, 3] : Fin 2 → Nat) a + S1x1.size a ≤ S25x8.size a
  inb_S25x8_S1x1_24_4 : ∀ a, (![24, 4] : Fin 2 → Nat) a + S1x1.size a ≤ S25x8.size a
  inb_S25x8_S1x1_24_5 : ∀ a, (![24, 5] : Fin 2 → Nat) a + S1x1.size a ≤ S25x8.size a
  inb_S25x8_S1x1_24_6 : ∀ a, (![24, 6] : Fin 2 → Nat) a + S1x1.size a ≤ S25x8.size a
  inb_S25x8_S1x1_24_7 : ∀ a, (![24, 7] : Fin 2 → Nat) a + S1x1.size a ≤ S25x8.size a
  shapeCasts_S512x128_S512x1x128 : S512x128.ShapeCasts S512x1x128
  concatenates_S512x1x128_S512x1x128_S512x1x128_S512x1x128_S512x1x128_S512x1x128_S512x1x128_S512x1x128_S512x1x128_S512x1x128_S512x1x128_S512x1x128_S512x1x128_S512x1x128_S512x1x128_S512x1x128_S512x1x128_S512x1x128_S512x1x128_S512x1x128_S512x1x128_S512x1x128_S512x1x128_S512x1x128_S512x24x128_d1 : Shape.Concatenates [S512x1x128, S512x1x128, S512x1x128, S512x1x128, S512x1x128, S512x1x128, S512x1x128, S512x1x128, S512x1x128, S512x1x128, S512x1x128, S512x1x128, S512x1x128, S512x1x128, S512x1x128, S512x1x128, S512x1x128, S512x1x128, S512x1x128, S512x1x128, S512x1x128, S512x1x128, S512x1x128, S512x1x128] S512x24x128 1
  inb_S512x24x128_S512x24x128_0_0_0 : ∀ a, (![0, 0, 0] : Fin 3 → Nat) a + S512x24x128.size a ≤ S512x24x128.size a
  h_S512x24x128 : 0 < S512x24x128.numel
  transposes_S16384x24x128_S16384x128x24_0_2_1 : S16384x24x128.Transposes [0, 2, 1] S16384x128x24
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x7x128.size a ≤ S16384x7x128.size a
  hwx0_0 : ∀ i : grid0.Coords, EltTy.bits .f32 = 32 ∨ (Rect.block (s := S16384x7x128) S512x7x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x5.size a ≤ S16x5.size a
  hwx0_2 : ∀ i : grid0.Coords, EltTy.bits .f32 = 32 ∨ (Rect.block (s := S16x5) S16x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S25x8.size a ≤ S25x8.size a
  hwx0_4 : ∀ i : grid0.Coords, EltTy.bits .f32 = 32 ∨ (Rect.block (s := S25x8) S25x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x24x128.size a ≤ S16384x24x128.size a
  hwx0_5 : ∀ i : grid0.Coords, EltTy.bits .f32 = 32 ∨ (Rect.block (s := S16384x24x128) S512x24x128.size (cc0_transform_5 i) (hinb0_5 i)).WholeWords (EltTy.packing .f32)

variable [Facts₀]

abbrev win0_0 : Pipeline.Window sig grid0 :=
  Pipeline.Window.ofSpec (Memref.whole main_v0) S512x7x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S25x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S512x24x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x128x7 : Shape := ⟨3, ![16384, 128, 7]⟩
abbrev S16384x128 : Shape := ⟨2, ![16384, 128]⟩
abbrev S16x5 : Shape := ⟨2, ![16, 5]⟩
abbrev S16 : Shape := ⟨1, ![16]⟩
abbrev S25x8 : Shape := ⟨2, ![25, 8]⟩
abbrev S16384x128x1 : Shape := ⟨3, ![16384, 128, 1]⟩
abbrev S16384x128x5 : Shape := ⟨3, ![16384, 128, 5]⟩
abbrev S16384x128x16 : Shape := ⟨3, ![16384, 128, 16]⟩
abbrev S1x1x16 : Shape := ⟨3, ![1, 1, 16]⟩
abbrev S_ : Shape := ⟨0, ![]⟩
abbrev S16384x128x8 : Shape := ⟨3, ![16384, 128, 8]⟩
abbrev S16384x128x24 : Shape := ⟨3, ![16384, 128, 24]⟩

abbrev nBuf : Space → Nat
  | .hbm => 48
  | .vmem => 0
  | .smem => 0
  | _ => 0

abbrev bufTy : (tb : Table) → Fin (tcTables nBuf tb) → BufTy
  | .hbm, ⟨0, _⟩ => ⟨S16384x128x7, .f32⟩
  | .hbm, ⟨1, _⟩ => ⟨S16384x128, .f32⟩
  | .hbm, ⟨2, _⟩ => ⟨S16x5, .f32⟩
  | .hbm, ⟨3, _⟩ => ⟨S16, .f32⟩
  | .hbm, ⟨4, _⟩ => ⟨S25x8, .f32⟩
  | .hbm, ⟨5, _⟩ => ⟨S16384x128x1, .f32⟩
  | .hbm, ⟨6, _⟩ => ⟨S16384x128x7, .f32⟩
  | .hbm, ⟨7, _⟩ => ⟨S16384x128x7, .f32⟩
  | .hbm, ⟨8, _⟩ => ⟨S16384x128x5, .f32⟩
  | .hbm, ⟨9, _⟩ => ⟨S16384x128x1, .f32⟩
  | .hbm, ⟨10, _⟩ => ⟨S16384x128, .f32⟩
  | .hbm, ⟨11, _⟩ => ⟨S16384x128, .i32⟩
  | .hbm, ⟨12, _⟩ => ⟨S16384x128x16, .f32⟩
  | .hbm, ⟨13, _⟩ => ⟨S1x1x16, .f32⟩
  | .hbm, ⟨14, _⟩ => ⟨S16384x128x16, .f32⟩
  | .hbm, ⟨15, _⟩ => ⟨S16384x128x16, .f32⟩
  | .hbm, ⟨16, _⟩ => ⟨S_, .f32⟩
  | .hbm, ⟨17, _⟩ => ⟨S16384x128x16, .f32⟩
  | .hbm, ⟨18, _⟩ => ⟨S16384x128x16, .f32⟩
  | .hbm, ⟨19, _⟩ => ⟨S_, .i32⟩
  | .hbm, ⟨20, _⟩ => ⟨S16384x128, .i32⟩
  | .hbm, ⟨21, _⟩ => ⟨S16384x128, .i1⟩
  | .hbm, ⟨22, _⟩ => ⟨S_, .i32⟩
  | .hbm, ⟨23, _⟩ => ⟨S16384x128, .i32⟩
  | .hbm, ⟨24, _⟩ => ⟨S16384x128, .i1⟩
  | .hbm, ⟨25, _⟩ => ⟨S16384x128, .i1⟩
  | .hbm, ⟨26, _⟩ => ⟨S_, .i32⟩
  | .hbm, ⟨27, _⟩ => ⟨S16384x128, .i32⟩
  | .hbm, ⟨28, _⟩ => ⟨S16384x128, .i32⟩
  | .hbm, ⟨29, _⟩ => ⟨S_, .i32⟩
  | .hbm, ⟨30, _⟩ => ⟨S16384x128, .i32⟩
  | .hbm, ⟨31, _⟩ => ⟨S16384x128, .i32⟩
  | .hbm, ⟨32, _⟩ => ⟨S_, .i32⟩
  | .hbm, ⟨33, _⟩ => ⟨S_, .i32⟩
  | .hbm, ⟨34, _⟩ => ⟨S16384x128, .i32⟩
  | .hbm, ⟨35, _⟩ => ⟨S16384x128, .i32⟩
  | .hbm, ⟨36, _⟩ => ⟨S_, .i32⟩
  | .hbm, ⟨37, _⟩ => ⟨S16384x128, .i32⟩
  | .hbm, ⟨38, _⟩ => ⟨S16384x128, .i1⟩
  | .hbm, ⟨39, _⟩ => ⟨S_, .i32⟩
  | .hbm, ⟨40, _⟩ => ⟨S16384x128, .i32⟩
  | .hbm, ⟨41, _⟩ => ⟨S16384x128, .i32⟩
  | .hbm, ⟨42, _⟩ => ⟨S16384x128, .i32⟩
  | .hbm, ⟨43, _⟩ => ⟨S16384x128x1, .i32⟩
  | .hbm, ⟨44, _⟩ => ⟨S16384x128x8, .f32⟩
  | .hbm, ⟨45, _⟩ => ⟨S16384x128x24, .f32⟩
  | .hbm, ⟨46, _⟩ => ⟨S16384x128x24, .f32⟩
  | .hbm, ⟨47, _⟩ => ⟨S16384x128x24, .f32⟩
  | _, _ => ⟨S16384x128x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_cst : Ref sig .tc := ⟨.hbm, 16, rfl⟩
abbrev main_call0_v0 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_call1_v0 : Ref sig .tc := ⟨.hbm, 33, rfl⟩
abbrev main_call1_v1 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S16384x128_S16384x128x1_0_1 : S16384x128.BroadcastsInDim S16384x128x1 (![0, 1] : Fin 2 → Fin S16384x128x1.rank)
  bcast_S16384x128x1_S16384x128x7_0_1_2 : S16384x128x1.BroadcastsInDim S16384x128x7 (![0, 1, 2] : Fin 3 → Fin S16384x128x7.rank)
  slices_S16384x128x7_S16384x128x5_0_0_0 : S16384x128x7.Slices ![0, 0, 0] S16384x128x5
  slices_S16384x128x7_S16384x128x1_0_0_5 : S16384x128x7.Slices ![0, 0, 5] S16384x128x1
  shapeCasts_S16384x128x1_S16384x128 : S16384x128x1.ShapeCasts S16384x128
  bcast_S16_S1x1x16_2 : S16.BroadcastsInDim S1x1x16 (![2] : Fin 1 → Fin S1x1x16.rank)
  bcast_S1x1x16_S16384x128x16_0_1_2 : S1x1x16.BroadcastsInDim S16384x128x16 (![0, 1, 2] : Fin 3 → Fin S16384x128x16.rank)
  bcast_S_S16384x128x16 : S_.BroadcastsInDim S16384x128x16 (![] : Fin 0 → Fin S16384x128x16.rank)
  bcast_S_S16384x128 : S_.BroadcastsInDim S16384x128 (![] : Fin 0 → Fin S16384x128.rank)
  concatenates_S16384x128x16_S16384x128x8_S16384x128x24_d2 : Shape.Concatenates [S16384x128x16, S16384x128x8] S16384x128x24 2
  bcast_S16384x128x1_S16384x128x24_0_1_2 : S16384x128x1.BroadcastsInDim S16384x128x24 (![0, 1, 2] : Fin 3 → Fin S16384x128x24.rank)
  dot_S16384x128x5_S16x5_S16384x128x16_2_1_01_0_n_n_wf : DotDims.WF S16384x128x5 S16x5 S16384x128x16 [2] [1] [0, 1] [0] [] []
  gather_S25x8_S16384x128x1_S16384x128x8_2_0_n_n_0_2_18_wf : GatherDims.WF S25x8 S16384x128x1 S16384x128x8 [2] [0] [] [0] [] 2 ![1, 8]

variable [Facts₀]

def dot_S16384x128x5_S16x5_S16384x128x16_2_1_01_0_n_n : DotDims S16384x128x5 S16x5 S16384x128x16 where
  lhsContracting := [2]
  rhsContracting := [1]
  lhsNonContracting := [0, 1]
  rhsNonContracting := [0]
  lhsBatch := []
  rhsBatch := []
  wf := dot_S16384x128x5_S16x5_S16384x128x16_2_1_01_0_n_n_wf
def gather_S25x8_S16384x128x1_S16384x128x8_2_0_n_n_0_2_18 : GatherDims S25x8 S16384x128x1 S16384x128x8 where
  offsetDims := [2]
  collapsedSliceDims := [0]
  operandBatchingDims := []
  startIndicesBatchingDims := []
  startIndexMap := [0]
  indexVectorDim := 2
  sliceSizes := ![1, 8]
  wf := gather_S25x8_S16384x128x1_S16384x128x8_2_0_n_n_0_2_18_wf

class Facts : Prop extends Facts₀ where

variable [Facts]
-- ==== Proof.Spec.lean ====
/-
  The mathematics of one array position, with no program in sight.

  At a position (row, lane) the kernel and the reference both see seven feature values `f 0 … f 6` and one
  mask value `mk`.  Feature `k` is used only through the masked product `f k * mk`.  The first sixteen output
  channels are a rectified affine form of the first five masked features, times the mask; the last eight are
  one row of a 25-row table, times the mask, the row being chosen by a word computed from the sixth masked
  feature: truncate it to a 32-bit integer `z`, and take `z - 56` when `57 ≤ z ≤ 80` and `0` otherwise.
  That word is always below 25, so the choice of a row can be written either as an index into the table or as
  a sum over all 25 rows of the row times the indicator "the word is this row's number"; on the extended reals
  the two agree whatever the table holds, because `0 * x = 0` and `0 + x = x` hold there without exception.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The remap of a 32-bit word `z`: `z - 57 + 1` when `57 ≤ z ≤ 80` as signed integers, `0` otherwise. -/
def remap (z : BitVec 32) : BitVec 32 :=
  Scalar.select (IntOp.andi (IntOp.cmpi .sge z 57#32) (IntOp.cmpi .sle z 80#32))
    (IntOp.addi (IntOp.subi z 57#32) 1#32) 0#32

/-- The remapped word is a row number of a 25-row table. -/
theorem remap_lt (z : BitVec 32) : (remap z).toNat < 25 := by
  unfold remap Scalar.select IntOp.andi IntOp.cmpi IntOp.addi IntOp.subi
  dsimp only
  by_cases h1 : (57#32).sle z = true <;> by_cases h2 : z.sle 80#32 = true
  · rw [h1, h2]
    rw [if_pos (by decide)]
    rw [BitVec.sle_iff_toInt_le] at h1 h2
    have e57 : (57#32).toInt = 57 := by decide
    have e80 : (80#32).toInt = 80 := by decide
    rw [e57] at h1; rw [e80] at h2
    have hz := BitVec.toInt_eq_toNat_cond z
    split at hz <;> bv_omega
  · rw [h1, (Bool.not_eq_true _).mp h2]
    rw [if_neg (by decide)]; decide
  · rw [(Bool.not_eq_true _).mp h1]
    rw [if_neg (by cases z.sle 80#32 <;> decide)]; decide
  · rw [(Bool.not_eq_true _).mp h1]
    rw [if_neg (by cases z.sle 80#32 <;> decide)]; decide

/-- The indicator "word `j` is word `k`" as an extended real: the comparison's bit widened to a 32-bit word and
    converted as a signed integer. -/
def ind (j k : BitVec 32) : EReal :=
  FloatOps.sitofp (F := Ideal) .f32 ((IntOp.cmpi .eq j k).setWidth 32)

theorem ind_self (j : BitVec 32) : ind j j = 1 := by
  have h : IntOp.cmpi .eq j j = 1#1 := by unfold IntOp.cmpi; simp
  unfold ind; rw [h]
  show (((((1#1 : BitVec 1).setWidth 32).toInt : ℤ) : ℝ) : EReal) = 1
  have : ((1#1 : BitVec 1).setWidth 32).toInt = 1 := by decide
  rw [this]; norm_num

theorem ind_ne {j k : BitVec 32} (hjk : j ≠ k) : ind j k = 0 := by
  have h : IntOp.cmpi .eq j k = 0#1 := by
    unfold IntOp.cmpi
    have : (j == k) = false := by simpa using hjk
    simp [this]
  unfold ind; rw [h]
  show (((((0#1 : BitVec 1).setWidth 32).toInt : ℤ) : ℝ) : EReal) = 0
  have : ((0#1 : BitVec 1).setWidth 32).toInt = 0 := by decide
  rw [this]; norm_num

/-- The sum, nested to the left and started at zero, of the first `n` rows `e 0 … e (n-1)`, each times the
    indicator that `j` is its number. -/
def pick (j : BitVec 32) (e : Nat → EReal) : Nat → EReal
  | 0 => 0
  | n + 1 => pick j e n + ind j (BitVec.ofNat 32 n) * e n

/-- While no row number has reached `j`, every term is `0 * e k = 0`. -/
theorem pick_of_le (j : BitVec 32) (e : Nat → EReal) (n : Nat) (hn : n ≤ j.toNat) : pick j e n = 0 := by
  induction n with
  | zero => rfl
  | succ n ih =>
    have hne : j ≠ BitVec.ofNat 32 n := by
      intro h
      have := congrArg BitVec.toNat h
      rw [BitVec.toNat_ofNat, Nat.mod_eq_of_lt (by have := j.isLt; omega)] at this
      omega
    show pick j e n + ind j (BitVec.ofNat 32 n) * e n = 0
    rw [ih (by omega), ind_ne hne, zero_mul, add_zero]

/-- Once the rows run past `j`, the sum is row `j`: its own term is `1 * e j`, every other `0`. -/
theorem pick_eq (j : BitVec 32) (e : Nat → EReal) (n : Nat) (hn : j.toNat < n) (h32 : n ≤ 2 ^ 32) :
    pick j e n = e j.toNat := by
  induction n with
  | zero => omega
  | succ n ih =>
    show pick j e n + ind j (BitVec.ofNat 32 n) * e n = e j.toNat
    by_cases hj : j.toNat = n
    · have hjn : j = BitVec.ofNat 32 n := by
        apply BitVec.eq_of_toNat_eq
        rw [BitVec.toNat_ofNat, Nat.mod_eq_of_lt (by omega)]; exact hj
      rw [pick_of_le j e n (by omega), ← hjn, ind_self, one_mul, zero_add, hj]
    · have hne : j ≠ BitVec.ofNat 32 n := by
        intro h
        have := congrArg BitVec.toNat h
        rw [BitVec.toNat_ofNat, Nat.mod_eq_of_lt (by omega)] at this
        exact hj this
      rw [ih (by omega) (by omega), ind_ne hne, zero_mul, add_zero]

/-- The 32-bit word the sixth masked feature truncates to. -/
def zword (f5 mk : EReal) : BitVec 32 := Ideal.fptosi 32 (f5 * mk)

/-- A rectified-affine channel: the five masked features against one row `w` of the weights, plus the bias
    `b`, cut off below at zero, times the mask. -/
def lin (f : Fin 7 → EReal) (mk : EReal) (w : Fin 5 → EReal) (b : EReal) : EReal :=
  max ((∑ k : Fin 5, (f (Fin.castLE (by decide) k) * mk) * w k) + b) 0 * mk

/-- A table channel: column `e` of the 25-row table at the remapped word's row, times the mask. -/
def emb (f : Fin 7 → EReal) (mk : EReal) (e : Fin 25 → EReal) : EReal :=
  e ⟨(remap (zword (f 5) mk)).toNat, remap_lt _⟩ * mk

/-- One position's 24 output channels. -/
def cell (f : Fin 7 → EReal) (mk : EReal) (W : Fin 16 → Fin 5 → EReal) (b : Fin 16 → EReal)
    (E : Fin 25 → Fin 8 → EReal) (ch : Fin 24) : EReal :=
  if h : ch.val < 16 then lin f mk (W ⟨ch.val, h⟩) (b ⟨ch.val, h⟩)
  else emb f mk (fun k => E k ⟨ch.val - 16, by have := ch.isLt; omega⟩)

/-- The whole result array `[16384, 128, 24]` as one function of the five argument arrays. -/
def arr (a0 : (⟨3, ![16384, 128, 7]⟩ : Shape).Idx → EReal) (a1 : (⟨2, ![16384, 128]⟩ : Shape).Idx → EReal)
    (a2 : (⟨2, ![16, 5]⟩ : Shape).Idx → EReal) (a3 : (⟨1, ![16]⟩ : Shape).Idx → EReal)
    (a4 : (⟨2, ![25, 8]⟩ : Shape).Idx → EReal) : (⟨3, ![16384, 128, 24]⟩ : Shape).Idx → EReal :=
  fun i => cell (fun k => a0 (ix3 (i 0) (i 1) k)) (a1 (ix2 (i 0) (i 1))) (fun o k => a2 (ix2 o k))
    (fun o => a3 (ix1 o)) (fun k d => a4 (ix2 k d)) (i 2)

end Cert.Spec

end
-- ==== Proof.RefValue.lean ====
/-
  The reference program's result, index by index, is the one-position function of the argument arrays.

  The result is read one index (row, lane, channel) at a time, from the last operation back to the arguments.
  Every layout operation on the way (broadcast, slice, reshape) reads its operand at an index with the same row
  and lane, so each intermediate array at (row, lane, ·) is a function of the seven features and the mask value
  at (row, lane). The channel decides the piece of the joined array: below 16 the rectified affine form, from 16
  on the gathered table row. The gather clamps its row number into the table's 25 rows and the program wraps a
  negative row number first; the remapped word is below 25, so neither changes it.
-/
import proofs.«141559_j70798240907696_1_alg».proof.Proof.Gen.ReferenceIdeal.Read
import proofs.«141559_j70798240907696_1_alg».proof.Proof.Spec

noncomputable section

namespace Cert.ReferenceIdeal.RefValue

open Cert.ReferenceIdeal Cert.ReferenceIdeal.Gen Idealize.ShloMosaic Idealize.ShloMosaic.ValueIdx
open Cert.ReferenceIdeal.Read

/-- The mask, laid along a unit third axis, reads the mask at the position. -/
theorem v0_at (x1 : (⟨S16384x128, .f32⟩ : BufTy).Contents (Elt Ideal)) (p : Fin 16384) (q : Fin 128) (r : Fin 1) :
    val_main_v0 (F := Ideal) x1 (ix3 p q r) = x1 (ix2 p q) := by
  rw [val_main_v0_apply]
  congr 1
  funext a
  match a with
  | ⟨0, _⟩ => rfl
  | ⟨1, _⟩ => rfl

/-- The mask, repeated along the seven features, reads the mask at the position. -/
theorem v1_at (x1 : (⟨S16384x128, .f32⟩ : BufTy).Contents (Elt Ideal)) (p : Fin 16384) (q : Fin 128) (k : Fin 7) :
    val_main_v1 (F := Ideal) x1 (ix3 p q k) = x1 (ix2 p q) := by
  rw [val_main_v1_apply]
  have e : idx_main_v1 (ix3 p q k) = ix3 p q (0 : Fin 1) := by
    funext a
    match a with
    | ⟨0, _⟩ => rfl
    | ⟨1, _⟩ => rfl
    | ⟨2, _⟩ => rfl
  rw [e, v0_at]

/-- A masked feature at a position. -/
theorem v2_at (x0 : (⟨S16384x128x7, .f32⟩ : BufTy).Contents (Elt Ideal)) (x1 : (⟨S16384x128, .f32⟩ : BufTy).Contents (Elt Ideal))
    (p : Fin 16384) (q : Fin 128) (k : Fin 7) :
    val_main_v2 (F := Ideal) x0 x1 (ix3 p q k) = x0 (ix3 p q k) * x1 (ix2 p q) := by
  rw [val_main_v2_apply, v1_at]
  rfl

/-- The first five masked features. -/
theorem v3_at (x0 : (⟨S16384x128x7, .f32⟩ : BufTy).Contents (Elt Ideal)) (x1 : (⟨S16384x128, .f32⟩ : BufTy).Contents (Elt Ideal))
    (p : Fin 16384) (q : Fin 128) (k : Fin 5) :
    val_main_v3 (F := Ideal) x0 x1 (ix3 p q k) = x0 (ix3 p q (Fin.castLE (by decide) k)) * x1 (ix2 p q) := by
  rw [val_main_v3_apply]
  have e : idx_main_v3 (ix3 p q k) = ix3 p q (Fin.castLE (by decide : 5 ≤ 7) k) := by
    funext a
    match a with
    | ⟨0, _⟩ => rfl
    | ⟨1, _⟩ => rfl
    | ⟨2, _⟩ => rfl
  rw [e, v2_at]

/-- The contraction of the five masked features against one row of the weights. -/
theorem v7_at (x0 : (⟨S16384x128x7, .f32⟩ : BufTy).Contents (Elt Ideal)) (x1 : (⟨S16384x128, .f32⟩ : BufTy).Contents (Elt Ideal))
    (x2 : (⟨S16x5, .f32⟩ : BufTy).Contents (Elt Ideal)) (p : Fin 16384) (q : Fin 128) (o : Fin 16) :
    val_main_v7 (F := Ideal) x0 x1 x2 (ix3 p q o)
      = ∑ k : Fin 5, (x0 (ix3 p q (Fin.castLE (by decide) k)) * x1 (ix2 p q)) * x2 (ix2 o k) := by
  rw [val_main_v7_apply]
  refine Finset.sum_congr rfl fun k _ => ?_
  have e1 : lidx_main_v7 (ix3 p q o) k = ix3 p q k := by
    funext a
    match a with
    | ⟨0, _⟩ => rfl
    | ⟨1, _⟩ => rfl
    | ⟨2, _⟩ => rfl
  have e2 : ridx_main_v7 (ix3 p q o) k = ix2 o k := by
    funext a
    match a with
    | ⟨0, _⟩ => rfl
    | ⟨1, _⟩ => rfl
  rw [e1, e2, v3_at]

/-- The bias, repeated over the positions. -/
theorem v9_at (x3 : (⟨S16, .f32⟩ : BufTy).Contents (Elt Ideal)) (p : Fin 16384) (q : Fin 128) (o : Fin 16) :
    val_main_v9 (F := Ideal) x3 (ix3 p q o) = x3 (ix1 o) := by
  rw [val_main_v9_apply, val_main_v8_apply]
  congr 1
  funext a
  match a with
  | ⟨0, _⟩ => rfl

/-- A rectified affine channel before the final masking. -/
theorem v11_at (x0 : (⟨S16384x128x7, .f32⟩ : BufTy).Contents (Elt Ideal)) (x1 : (⟨S16384x128, .f32⟩ : BufTy).Contents (Elt Ideal))
    (x2 : (⟨S16x5, .f32⟩ : BufTy).Contents (Elt Ideal)) (x3 : (⟨S16, .f32⟩ : BufTy).Contents (Elt Ideal))
    (p : Fin 16384) (q : Fin 128) (o : Fin 16) :
    val_main_v11 (F := Ideal) x0 x1 x2 x3 (ix3 p q o)
      = max ((∑ k : Fin 5, (x0 (ix3 p q (Fin.castLE (by decide) k)) * x1 (ix2 p q)) * x2 (ix2 o k)) + x3 (ix1 o)) 0 := by
  rw [val_main_v11_apply, val_main_v10_apply, v7_at, v9_at, val_main_call0_v0_apply, val_main_call0_cst_apply]
  simp only [Ideal.maximumf_def, Ideal.addf_def]
  congr 1
  exact Ideal.ofBits_zero_f32

/-- The sixth masked feature, as a [16384,128] array. -/
theorem v5_at (x0 : (⟨S16384x128x7, .f32⟩ : BufTy).Contents (Elt Ideal)) (x1 : (⟨S16384x128, .f32⟩ : BufTy).Contents (Elt Ideal))
    (p : Fin 16384) (q : Fin 128) :
    val_main_v5 (F := Ideal) x0 x1 (ix2 p q) = x0 (ix3 p q (5 : Fin 7)) * x1 (ix2 p q) := by
  rw [val_main_v5_apply, val_main_v4_apply]
  have e : idx_main_v4 (idx_main_v5 (ix2 p q)) = ix3 p q (5 : Fin 7) := by
    have hq : q.val < 128 := q.isLt
    funext a
    match a with
    | ⟨0, _⟩ => exact Fin.ext (by show (p.val * 128 + q.val) / 128 = p.val; omega)
    | ⟨1, _⟩ => exact Fin.ext (by show (p.val * 128 + q.val) / 1 % 128 = q.val; omega)
    | ⟨2, _⟩ => rfl
  rw [e, v2_at]

/-- The 32-bit word the sixth masked feature truncates to. -/
theorem v6_at (x0 : (⟨S16384x128x7, .f32⟩ : BufTy).Contents (Elt Ideal)) (x1 : (⟨S16384x128, .f32⟩ : BufTy).Contents (Elt Ideal))
    (p : Fin 16384) (q : Fin 128) :
    val_main_v6 (F := Ideal) x0 x1 (ix2 p q) = Cert.Spec.zword (x0 (ix3 p q (5 : Fin 7))) (x1 (ix2 p q)) := by
  rw [val_main_v6_apply, v5_at]
  rfl

/-- The remapped word. -/
theorem v21_at (x0 : (⟨S16384x128x7, .f32⟩ : BufTy).Contents (Elt Ideal)) (x1 : (⟨S16384x128, .f32⟩ : BufTy).Contents (Elt Ideal))
    (p : Fin 16384) (q : Fin 128) :
    val_main_v21 (F := Ideal) x0 x1 (ix2 p q)
      = Cert.Spec.remap (Cert.Spec.zword (x0 (ix3 p q (5 : Fin 7))) (x1 (ix2 p q))) := by
  rw [val_main_v21_apply, val_main_v16_apply, val_main_v13_apply, val_main_v15_apply, val_main_v20_apply,
    val_main_v18_apply, val_main_v12_apply, val_main_v14_apply, val_main_v17_apply, val_main_v19_apply,
    val_main_call1_v1_apply, val_main_call1_v0_apply, val_main_c_apply, val_main_c_0_apply, val_main_c_1_apply,
    val_main_c_2_apply, val_main_c_3_apply, v6_at]
  rfl

/-- A word below 25 is not negative as a signed integer. -/
theorem not_slt_zero (r : BitVec 32) (h : r.toNat < 25) : IntOp.cmpi .slt r 0#32 = 0#1 := by
  unfold IntOp.cmpi
  dsimp only
  have : r.slt 0#32 = false := by
    rw [Bool.eq_false_iff]
    intro hs
    rw [BitVec.slt_iff_toInt_lt] at hs
    have hz := BitVec.toInt_eq_toNat_cond r
    rw [if_pos (by omega)] at hz
    have e0 : (0#32).toInt = 0 := by decide
    omega
  rw [this]
  rfl

/-- The wrap of a negative row number is never taken: the remapped word is a row number already. -/
theorem v26_at (x0 : (⟨S16384x128x7, .f32⟩ : BufTy).Contents (Elt Ideal)) (x1 : (⟨S16384x128, .f32⟩ : BufTy).Contents (Elt Ideal))
    (p : Fin 16384) (q : Fin 128) :
    val_main_v26 (F := Ideal) x0 x1 (ix2 p q)
      = Cert.Spec.remap (Cert.Spec.zword (x0 (ix3 p q (5 : Fin 7))) (x1 (ix2 p q))) := by
  rw [val_main_v26_apply, val_main_v23_apply, v21_at, val_main_v22_apply, val_main_c_4_apply,
    not_slt_zero _ (Cert.Spec.remap_lt _), select_zero]

/-- The row numbers, laid along a unit third axis. -/
theorem v27_at (x0 : (⟨S16384x128x7, .f32⟩ : BufTy).Contents (Elt Ideal)) (x1 : (⟨S16384x128, .f32⟩ : BufTy).Contents (Elt Ideal))
    (p : Fin 16384) (q : Fin 128) (r : Fin 1) :
    val_main_v27 (F := Ideal) x0 x1 (ix3 p q r)
      = Cert.Spec.remap (Cert.Spec.zword (x0 (ix3 p q (5 : Fin 7))) (x1 (ix2 p q))) := by
  rw [val_main_v27_apply]
  have e : idx_main_v27 (ix3 p q r) = ix2 p q := by
    funext a
    match a with
    | ⟨0, _⟩ => rfl
    | ⟨1, _⟩ => rfl
  rw [e, v26_at]

/-- The gather of the table at an array of row numbers, read at one index: when the row number there is a word
    below 25, the clamp into the table's rows does nothing and the element is the table's at that row and at the
    index's channel. -/
theorem gather_at (x4 : (⟨S25x8, .f32⟩ : BufTy).Contents (Elt Ideal)) (idx : (⟨S16384x128x1, .i32⟩ : BufTy).Contents (Elt Ideal))
    (p : Fin 16384) (q : Fin 128) (d : Fin 8) (r : BitVec 32) (hr : r.toNat < 25)
    (hidx : idx (ix3 p q (0 : Fin 1)) = r) :
    Host.gather gather_S25x8_S16384x128x1_S16384x128x8_2_0_n_n_0_2_18 x4 idx (ix3 p q d)
      = x4 (ix2 (⟨r.toNat, hr⟩ : Fin 25) d) := by
  unfold Host.gather
  congr 1
  funext a
  match a with
  | ⟨0, _⟩ =>
    refine Fin.ext ?_
    show gather_S25x8_S16384x128x1_S16384x128x8_2_0_n_n_0_2_18.start (ix3 p q d) idx 0
      + gather_S25x8_S16384x128x1_S16384x128x8_2_0_n_n_0_2_18.batchCoord (ix3 p q d) 0
      + gather_S25x8_S16384x128x1_S16384x128x8_2_0_n_n_0_2_18.offCoord (ix3 p q d) 0 = r.toNat
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S25x8_S16384x128x1_S16384x128x8_2_0_n_n_0_2_18.startIndexMap from
      List.mem_singleton.mpr rfl)]
    have hsi : gather_S25x8_S16384x128x1_S16384x128x8_2_0_n_n_0_2_18.siIdx (ix3 p q d)
        ⟨List.idxOf (0 : Fin 2) gather_S25x8_S16384x128x1_S16384x128x8_2_0_n_n_0_2_18.startIndexMap,
          List.idxOf_lt_length_iff.2 (List.mem_singleton.mpr rfl)⟩ = ix3 p q (0 : Fin 1) := by
      funext b; refine Fin.ext ?_
      match b with
      | ⟨0, _⟩ => rfl
      | ⟨1, _⟩ => rfl
      | ⟨2, _⟩ => rfl
    rw [hsi, hidx]
    show min r.toInt.toNat (25 - 1) = r.toNat
    have hz := BitVec.toInt_eq_toNat_cond r
    rw [if_pos (by omega)] at hz
    rw [hz, Int.toNat_natCast]
    omega
  | ⟨1, _⟩ =>
    refine Fin.ext ?_
    show gather_S25x8_S16384x128x1_S16384x128x8_2_0_n_n_0_2_18.start (ix3 p q d) idx 1
      + gather_S25x8_S16384x128x1_S16384x128x8_2_0_n_n_0_2_18.batchCoord (ix3 p q d) 1
      + gather_S25x8_S16384x128x1_S16384x128x8_2_0_n_n_0_2_18.offCoord (ix3 p q d) 1 = d.val
    rw [GatherDims.batchCoord_eq_zero _ _ _ List.not_mem_nil]
    unfold GatherDims.start GatherDims.offCoord
    rw [dif_neg (show ¬ (1 : Fin 2) ∈ gather_S25x8_S16384x128x1_S16384x128x8_2_0_n_n_0_2_18.startIndexMap by decide),
      dif_pos (show (1 : Fin 2) ∈ gather_S25x8_S16384x128x1_S16384x128x8_2_0_n_n_0_2_18.sKept by decide)]
    simp only [Nat.add_zero, Nat.zero_add]
    rfl

/-- A table channel before the final masking: the table's row at the remapped word. -/
theorem v28_at (x0 : (⟨S16384x128x7, .f32⟩ : BufTy).Contents (Elt Ideal)) (x1 : (⟨S16384x128, .f32⟩ : BufTy).Contents (Elt Ideal))
    (x4 : (⟨S25x8, .f32⟩ : BufTy).Contents (Elt Ideal)) (p : Fin 16384) (q : Fin 128) (d : Fin 8) :
    val_main_v28 (F := Ideal) x0 x1 x4 (ix3 p q d)
      = x4 (ix2 (⟨(Cert.Spec.remap (Cert.Spec.zword (x0 (ix3 p q (5 : Fin 7))) (x1 (ix2 p q)))).toNat,
          Cert.Spec.remap_lt _⟩ : Fin 25) d) := by
  have hidx := v27_at x0 x1 p q (0 : Fin 1)
  unfold val_main_v28
  generalize val_main_v27 (F := Ideal) x0 x1 = idx at hidx
  exact gather_at x4 idx p q d _ (Cert.Spec.remap_lt _) hidx

/-- The joined array at one of the first sixteen channels. -/
theorem v29_left (x0 : (⟨S16384x128x7, .f32⟩ : BufTy).Contents (Elt Ideal)) (x1 : (⟨S16384x128, .f32⟩ : BufTy).Contents (Elt Ideal))
    (x2 : (⟨S16x5, .f32⟩ : BufTy).Contents (Elt Ideal)) (x3 : (⟨S16, .f32⟩ : BufTy).Contents (Elt Ideal))
    (x4 : (⟨S25x8, .f32⟩ : BufTy).Contents (Elt Ideal)) (p : Fin 16384) (q : Fin 128) (c : Fin 24) (hc : c.val < 16) :
    val_main_v29 (F := Ideal) x0 x1 x2 x3 x4 (ix3 p q c)
      = val_main_v11 (F := Ideal) x0 x1 x2 x3 (ix3 p q (⟨c.val, hc⟩ : Fin 16)) := by
  unfold val_main_v29
  generalize val_main_v11 (F := Ideal) x0 x1 x2 x3 = y1
  generalize val_main_v28 (F := Ideal) x0 x1 x4 = y2
  exact concatenate_pair_apply_left (2 : Fin 3) y1 y2 concatenates_S16384x128x16_S16384x128x8_S16384x128x24_d2
    (ix3 p q c) rfl (ix3 p q (⟨c.val, hc⟩ : Fin 16)) (fun b => match b with
      | ⟨0, _⟩ => rfl
      | ⟨1, _⟩ => rfl
      | ⟨2, _⟩ => rfl)

/-- The joined array at one of the last eight channels. -/
theorem v29_right (x0 : (⟨S16384x128x7, .f32⟩ : BufTy).Contents (Elt Ideal)) (x1 : (⟨S16384x128, .f32⟩ : BufTy).Contents (Elt Ideal))
    (x2 : (⟨S16x5, .f32⟩ : BufTy).Contents (Elt Ideal)) (x3 : (⟨S16, .f32⟩ : BufTy).Contents (Elt Ideal))
    (x4 : (⟨S25x8, .f32⟩ : BufTy).Contents (Elt Ideal)) (p : Fin 16384) (q : Fin 128) (c : Fin 24) (hc : ¬ c.val < 16) :
    val_main_v29 (F := Ideal) x0 x1 x2 x3 x4 (ix3 p q c)
      = val_main_v28 (F := Ideal) x0 x1 x4 (ix3 p q (⟨c.val - 16, by have := c.isLt; omega⟩ : Fin 8)) := by
  unfold val_main_v29
  generalize val_main_v11 (F := Ideal) x0 x1 x2 x3 = y1
  generalize val_main_v28 (F := Ideal) x0 x1 x4 = y2
  exact concatenate_pair_apply_right (2 : Fin 3) y1 y2 concatenates_S16384x128x16_S16384x128x8_S16384x128x24_d2
    (ix3 p q c) rfl rfl (ix3 p q (⟨c.val - 16, by have := c.isLt; omega⟩ : Fin 8)) (fun b hb => match b, hb with
      | ⟨0, _⟩, _ => rfl
      | ⟨1, _⟩, _ => rfl
      | ⟨2, _⟩, hb => absurd rfl hb)
    (by show (c.val - 16) + 16 = c.val; omega)

/-- The mask, repeated along the 24 channels. -/
theorem v30_at (x1 : (⟨S16384x128, .f32⟩ : BufTy).Contents (Elt Ideal)) (p : Fin 16384) (q : Fin 128) (c : Fin 24) :
    val_main_v30 (F := Ideal) x1 (ix3 p q c) = x1 (ix2 p q) := by
  rw [val_main_v30_apply]
  have e : idx_main_v30 (ix3 p q c) = ix3 p q (0 : Fin 1) := by
    funext a
    match a with
    | ⟨0, _⟩ => rfl
    | ⟨1, _⟩ => rfl
    | ⟨2, _⟩ => rfl
  rw [e, v0_at]

theorem ref_eq (x0 : (⟨S16384x128x7, .f32⟩ : BufTy).Contents (Elt Ideal)) (x1 : (⟨S16384x128, .f32⟩ : BufTy).Contents (Elt Ideal))
    (x2 : (⟨S16x5, .f32⟩ : BufTy).Contents (Elt Ideal)) (x3 : (⟨S16, .f32⟩ : BufTy).Contents (Elt Ideal))
    (x4 : (⟨S25x8, .f32⟩ : BufTy).Contents (Elt Ideal)) :
    Cert.ReferenceIdeal.Read.val_main_v31 (F := Ideal) x0 x1 x2 x3 x4 = Cert.Spec.arr x0 x1 x2 x3 x4 := by
  funext i
  obtain ⟨p, q, c, rfl⟩ : ∃ (p : Fin 16384) (q : Fin 128) (c : Fin 24), i = ix3 p q c := ⟨i 0, i 1, i 2, eq_ix3 i⟩
  show _ = Cert.Spec.cell (fun k => x0 (ix3 p q k)) (x1 (ix2 p q)) (fun o k => x2 (ix2 o k)) (fun o => x3 (ix1 o))
    (fun k d => x4 (ix2 k d)) c
  rw [val_main_v31_apply, v30_at]
  unfold Cert.Spec.cell
  by_cases hc : c.val < 16
  · rw [dif_pos hc, v29_left x0 x1 x2 x3 x4 p q c hc, v11_at]
    rfl
  · rw [dif_neg hc, v29_right x0 x1 x2 x3 x4 p q c hc, v28_at]
    rfl

end Cert.ReferenceIdeal.RefValue

end
-- ==== Proof.BodyNames.lean ====
/- A table of names and nothing else: the 294 payload definitions of the kernel body, in one macro. -/
import proofs.«141559_j70798240907696_1_alg».proof.Proof.Gen.KernelIdeal.Skeleton

namespace Cert.KernelIdeal.Block

open Cert.KernelIdeal.Gen

/-- `simp only` with every payload definition of the kernel body opened, and the lemmas given. -/
macro "open_body" "[" ls:Lean.Parser.Tactic.simpLemma,* "]" : tactic =>
  `(tactic| simp only [
    k0_pay1, k0_pay2, k0_pay3, k0_pay4, k0_pay5, k0_pay6, k0_pay7, k0_pay8, k0_pay9, k0_pay10, k0_pay11, k0_pay12,
    k0_pay13, k0_pay14, k0_pay15, k0_pay16, k0_pay17, k0_pay18, k0_pay19, k0_pay20, k0_pay21, k0_pay22, k0_pay23, k0_pay24,
    k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48,
    k0_pay49, k0_pay50, k0_pay51, k0_pay52, k0_pay53, k0_pay54, k0_pay55, k0_pay56, k0_pay57, k0_pay58, k0_pay59, k0_pay60,
    k0_pay61, k0_pay62, k0_pay63, k0_pay64, k0_pay65, k0_pay66, k0_pay67, k0_pay68, k0_pay69, k0_pay70, k0_pay71, k0_pay72,
    k0_pay73, k0_pay74, k0_pay75, k0_pay76, k0_pay77, k0_pay78, k0_pay79, k0_pay80, k0_pay81, k0_pay82, k0_pay83, k0_pay84,
    k0_pay85, k0_pay86, k0_pay87, k0_pay88, k0_pay89, k0_pay90, k0_pay91, k0_pay92, k0_pay93, k0_pay94, k0_pay95, k0_pay96,
    k0_pay97, k0_pay98, k0_pay99, k0_pay100, k0_pay101, k0_pay102, k0_pay103, k0_pay104, k0_pay105, k0_pay106, k0_pay107, k0_pay108,
    k0_pay109, k0_pay110, k0_pay111, k0_pay112, k0_pay113, k0_pay114, k0_pay115, k0_pay116, k0_pay117, k0_pay118, k0_pay119, k0_pay120,
    k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144,
    k0_pay145, k0_pay146, k0_pay147, k0_pay148, k0_pay149, k0_pay150, k0_pay151, k0_pay152, k0_pay153, k0_pay154, k0_pay155, k0_pay156,
    k0_pay157, k0_pay158, k0_pay159, k0_pay160, k0_pay161, k0_pay162, k0_pay163, k0_pay164, k0_pay165, k0_pay166, k0_pay167, k0_pay168,
    k0_pay169, k0_pay170, k0_pay171, k0_pay172, k0_pay173, k0_pay174, k0_pay175, k0_pay176, k0_pay177, k0_pay178, k0_pay179, k0_pay180,
    k0_pay181, k0_pay182, k0_pay183, k0_pay184, k0_pay185, k0_pay186, k0_pay187, k0_pay188, k0_pay189, k0_pay190, k0_pay191, k0_pay192,
    k0_pay193, k0_pay194, k0_pay195, k0_pay196, k0_pay197, k0_pay198, k0_pay199, k0_pay200, k0_pay201, k0_pay202, k0_pay203, k0_pay204,
    k0_pay205, k0_pay206, k0_pay207, k0_pay208, k0_pay209, k0_pay210, k0_pay211, k0_pay212, k0_pay213, k0_pay214, k0_pay215, k0_pay216,
    k0_pay217, k0_pay218, k0_pay219, k0_pay220, k0_pay221, k0_pay222, k0_pay223, k0_pay224, k0_pay225, k0_pay226, k0_pay227, k0_pay228,
    k0_pay229, k0_pay230, k0_pay231, k0_pay232, k0_pay233, k0_pay234, k0_pay235, k0_pay236, k0_pay237, k0_pay238, k0_pay239, k0_pay240,
    k0_pay241, k0_pay242, k0_pay243, k0_pay244, k0_pay245, k0_pay246, k0_pay247, k0_pay248, k0_pay249, k0_pay250, k0_pay251, k0_pay252,
    k0_pay253, k0_pay254, k0_pay255, k0_pay256, k0_pay257, k0_pay258, k0_pay259, k0_pay260, k0_pay261, k0_pay262, k0_pay263, k0_pay264,
    k0_pay265, k0_pay266, k0_pay267, k0_pay268, k0_pay269, k0_pay270, k0_pay271, k0_pay272, k0_pay273, k0_pay274, k0_pay275, k0_pay276,
    k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294,
    $ls,*])

end Cert.KernelIdeal.Block
-- ==== Proof.BlockReads.lean ====
/-
  Reading the kernel body's loads and its final store at an index.

  The body loads the mask block whole, each of six feature planes as a `[512, 1, 128]` slab that it recasts to
  `[512, 128]`, and every weight, bias and table entry as a one-element vector from which it extracts the
  scalar.  It stores one `[512, 24, 128]` block, the concatenation along the middle axis of 24 slabs
  `[512, 1, 128]`, so entry (r, ch, n) of the stored block is entry (r, 0, n) of slab `ch`.
-/
import proofs.«141559_j70798240907696_1_alg».proof.Proof.Gen.KernelIdeal.Frame
import proofs.«141559_j70798240907696_1_alg».proof.Proof.BodyNames
import Idealize.ShloMosaic.Lib.Pipeline.Value
import Idealize.ShloMosaic.Lib.ValueIdx

noncomputable section

namespace Cert.KernelIdeal.Block

open Cert.KernelIdeal Cert.KernelIdeal.Gen Idealize.ShloMosaic Idealize.ShloMosaic.ValueIdx

variable {α : Type}

theorem hz3 : (![0, 0, 0] : Fin 3 → Nat) = fun _ => 0 := by funext a; fin_cases a <;> rfl
theorem hz2 : (![0, 0] : Fin 2 → Nat) = fun _ => 0 := by funext a; fin_cases a <;> rfl

/-- `[512, 128]` recast as `[512, 1, 128]`, read at `(r, 0, n)`. -/
theorem cast_in (x : S512x128.Idx → α) (h : S512x128.ShapeCasts S512x1x128) (r : Fin 512) (n : Fin 128) :
    shapeCast S512x1x128 x h (ix3 r 0 n) = x (ix2 r n) :=
  shapeCast_apply x h _ _ (by
    rw [Shape.rowMajor_val_three, Shape.rowMajor_val_two]
    show r.val * 128 + n.val = (r.val * 1 + 0) * 128 + n.val
    omega)

/-- `[512, 1, 128]` recast as `[512, 128]`, read at `(r, n)`. -/
theorem cast_out (x : S512x1x128.Idx → α) (h : S512x1x128.ShapeCasts S512x128) (r : Fin 512) (n : Fin 128) :
    shapeCast S512x128 x h (ix2 r n) = x (ix3 r 0 n) :=
  shapeCast_apply x h _ _ (by
    rw [Shape.rowMajor_val_three, Shape.rowMajor_val_two]
    show (r.val * 1 + 0) * 128 + n.val = r.val * 128 + n.val
    omega)

/-- Feature plane `k` of the block, loaded as `[512, 1, 128]`, read at `(r, 0, n)`. -/
theorem ld_plane (x0 : Vec Ideal S512x7x128 .f32) (k : Nat) (inb) (r : Fin 512) (n : Fin 128) :
    View.ld x0 (Rect.unit (s := S512x7x128) ![0, k, 0] S512x1x128.size inb) (ix3 r 0 n)
      = x0 (ix3 r ⟨k, Nat.lt_of_succ_le (inb 1)⟩ n) := by
  show x0 ((Rect.unit (s := S512x7x128) ![0, k, 0] S512x1x128.size inb).emb (ix3 r 0 n)) = _
  congr 1; funext a; apply Fin.ext
  rw [Rect.emb_apply]
  fin_cases a <;> simp

/-- One weight, loaded as `[1, 1]` and extracted. -/
theorem ld_w (x2 : Vec Ideal S16x5 .f32) (a b : Nat) (inb) (hp) :
    extractAt ![0, 0] (View.ld x2 (Rect.unit (s := S16x5) ![a, b] S1x1.size inb)) hp
      = x2 (ix2 ⟨a, Nat.lt_of_succ_le (inb 0)⟩ ⟨b, Nat.lt_of_succ_le (inb 1)⟩) := by
  show x2 ((Rect.unit (s := S16x5) ![a, b] S1x1.size inb).emb _) = _
  congr 1; funext c; apply Fin.ext
  rw [Rect.emb_apply]
  fin_cases c <;> simp

/-- One bias, loaded as `[1]` and extracted. -/
theorem ld_b (x3 : Vec Ideal S16 .f32) (a : Nat) (inb) (hp) :
    extractAt ![0] (View.ld x3 (Rect.unit (s := S16) ![a] S1.size inb)) hp = x3 (ix1 ⟨a, Nat.lt_of_succ_le (inb 0)⟩) := by
  show x3 ((Rect.unit (s := S16) ![a] S1.size inb).emb _) = _
  congr 1; funext c; apply Fin.ext
  rw [Rect.emb_apply]
  fin_cases c; simp

/-- One table entry, loaded as `[1, 1]` and extracted. -/
theorem ld_e (x4 : Vec Ideal S25x8 .f32) (a b : Nat) (inb) (hp) :
    extractAt ![0, 0] (View.ld x4 (Rect.unit (s := S25x8) ![a, b] S1x1.size inb)) hp
      = x4 (ix2 ⟨a, Nat.lt_of_succ_le (inb 0)⟩ ⟨b, Nat.lt_of_succ_le (inb 1)⟩) := by
  show x4 ((Rect.unit (s := S25x8) ![a, b] S1x1.size inb).emb _) = _
  congr 1; funext c; apply Fin.ext
  rw [Rect.emb_apply]
  fin_cases c <;> simp

/-- The whole mask block loaded whole. -/
theorem ld_mask (x1 : Vec Ideal S512x128 .f32) (inb) :
    View.ld x1 (Rect.unit (s := S512x128) ![0, 0] S512x128.size inb) = x1 :=
  View.ld_unit_zero hz2 inb x1

/-- Open entry `(r, k, n)` of the stored block down to scalar arithmetic on entries of the five input blocks:
    the one store covers the block; slab `k` of the concatenation is selected; every payload and every
    lane-by-lane operation is opened at the index; the loads are read. -/
macro "open_channel" k:num r:ident n:ident : tactic => `(tactic| (
  unfold out0_5
  rw [View.canon_unit_zero hz3]
  unfold k0_pay1
  refine (concatenate_apply_piece (t := S512x24x128) 1 _ _ _ $k ?hk S512x1x128 ?x1 ?hx rfl $k ?hpre (ix3 $r 0 $n) ?hi ?ha).trans ?_
  case hx => rfl
  case hk => show ($k : Nat) < 24; decide
  case hpre => simp
  case hi =>
    intro b hb; fin_cases b
    · rfl
    · exact absurd rfl hb
    · rfl
  case ha => rfl
  open_body [cast_in, cast_out, ld_mask, mulf, addf, maximumf, broadcast, fptosi, cmpi, andi, subi, addi, select, extui,
    sitofp]
  repeat rw [ld_w]
  repeat rw [ld_b]
  repeat rw [ld_e]
  repeat rw [ld_plane]))

end Cert.KernelIdeal.Block

end
-- ==== Proof.KernelForms.lean ====
/-
  The kernel's spelling of one position's channels, and that it is the one-position function.

  A rectified-affine channel is spelt by the kernel as the bias plus, one after the other, weight `k` times
  the masked feature `k`; the reference's sum runs the other way round (masked feature times weight, bias
  last).  Addition and multiplication of extended reals are commutative and associative, which is all the two
  orders differ by.  A table channel is spelt as zero plus, for every row number `k` from 0 to 24 in turn, the
  indicator "the remapped word is `k`" times the table entry of row `k`: the left-nested sum `Spec.pick`, which
  is the entry of the remapped word's row.
-/
import proofs.«141559_j70798240907696_1_alg».proof.Proof.Spec

noncomputable section

namespace Cert.Spec

open Idealize.ShloMosaic Idealize.ShloMosaic.ValueIdx

/-- `pick` in the kernel's spelling: float operations of the ideal instance, the zero a float constant. -/
def kpick (j : BitVec 32) (e : Nat → EReal) : Nat → EReal
  | 0 => FloatOps.ofBits (F := Ideal) .f32 0#32
  | n + 1 => FloatOps.addf (F := Ideal) (φ := .f32) (kpick j e n)
      (FloatOps.mulf (F := Ideal) (φ := .f32)
        (FloatOps.sitofp (F := Ideal) .f32 ((IntOp.cmpi .eq j (BitVec.ofNat 32 n)).setWidth 32)) (e n))

theorem kpick_eq_pick (j : BitVec 32) (e : Nat → EReal) (n : Nat) : kpick j e n = pick j e n := by
  induction n with
  | zero => exact Ideal.ofBits_zero_f32
  | succ n ih =>
    show FloatOps.addf (F := Ideal) (φ := .f32) (kpick j e n) _ = pick j e n + ind j (BitVec.ofNat 32 n) * e n
    rw [ih]; rfl

/-- A table channel as the kernel spells it is the cell's table channel. -/
theorem cell_emb (f : Fin 7 → EReal) (mk : EReal) (W : Fin 16 → Fin 5 → EReal) (b : Fin 16 → EReal)
    (E : Fin 25 → Fin 8 → EReal) (d : Fin 8) :
    FloatOps.mulf (F := Ideal) (φ := .f32)
      (kpick (remap (FloatOps.fptosi (F := Ideal) (φ := .f32) 32 (FloatOps.mulf (F := Ideal) (φ := .f32) (f 5) mk)))
        (fun k => if h : k < 25 then E ⟨k, h⟩ d else 0) 25) mk
      = cell f mk W b E ⟨16 + d.val, by have := d.isLt; omega⟩ := by
  have hch : ¬ (16 + d.val < 16) := by omega
  unfold cell
  rw [dif_neg hch, kpick_eq_pick, pick_eq _ _ 25 (remap_lt _) (by norm_num)]
  unfold emb zword
  rw [dif_pos (remap_lt _)]
  have hd : (⟨16 + d.val - 16, by have := d.isLt; omega⟩ : Fin 8) = d := Fin.ext (by simp)
  rw [hd]
  rfl

/-- A rectified-affine channel as the kernel spells it is the cell's. -/
theorem cell_lin (f : Fin 7 → EReal) (mk : EReal) (W : Fin 16 → Fin 5 → EReal) (b : Fin 16 → EReal)
    (E : Fin 25 → Fin 8 → EReal) (o : Fin 16) :
    FloatOps.mulf (F := Ideal) (φ := .f32)
      (FloatOps.maximumf (F := Ideal) (φ := .f32)
        (FloatOps.addf (F := Ideal) (φ := .f32)
          (FloatOps.addf (F := Ideal) (φ := .f32)
            (FloatOps.addf (F := Ideal) (φ := .f32)
              (FloatOps.addf (F := Ideal) (φ := .f32)
                (FloatOps.addf (F := Ideal) (φ := .f32) (b o)
                  (FloatOps.mulf (F := Ideal) (φ := .f32) (W o 0) (FloatOps.mulf (F := Ideal) (φ := .f32) (f 0) mk)))
                (FloatOps.mulf (F := Ideal) (φ := .f32) (W o 1) (FloatOps.mulf (F := Ideal) (φ := .f32) (f 1) mk)))
              (FloatOps.mulf (F := Ideal) (φ := .f32) (W o 2) (FloatOps.mulf (F := Ideal) (φ := .f32) (f 2) mk)))
            (FloatOps.mulf (F := Ideal) (φ := .f32) (W o 3) (FloatOps.mulf (F := Ideal) (φ := .f32) (f 3) mk)))
          (FloatOps.mulf (F := Ideal) (φ := .f32) (W o 4) (FloatOps.mulf (F := Ideal) (φ := .f32) (f 4) mk)))
        (FloatOps.ofBits (F := Ideal) .f32 0#32)) mk
      = cell f mk W b E ⟨o.val, by have := o.isLt; omega⟩ := by
  unfold cell
  rw [dif_pos o.isLt]
  unfold lin
  rw [Fin.sum_univ_five]
  show max (b o + W o 0 * (f 0 * mk) + W o 1 * (f 1 * mk) + W o 2 * (f 2 * mk) + W o 3 * (f 3 * mk)
      + W o 4 * (f 4 * mk)) (Ideal.ofBits .f32 0#32) * mk = _
  rw [Ideal.ofBits_zero_f32]
  congr 2
  simp only [mul_comm (W _ _) (_ * mk)]
  have e0 : (Fin.castLE (by decide : 5 ≤ 7) (0 : Fin 5)) = (0 : Fin 7) := rfl
  have e1 : (Fin.castLE (by decide : 5 ≤ 7) (1 : Fin 5)) = (1 : Fin 7) := rfl
  have e2 : (Fin.castLE (by decide : 5 ≤ 7) (2 : Fin 5)) = (2 : Fin 7) := rfl
  have e3 : (Fin.castLE (by decide : 5 ≤ 7) (3 : Fin 5)) = (3 : Fin 7) := rfl
  have e4 : (Fin.castLE (by decide : 5 ≤ 7) (4 : Fin 5)) = (4 : Fin 7) := rfl
  rw [e0, e1, e2, e3, e4]
  ac_rfl

end Cert.Spec

end
-- ==== Proof.ChanA.lean ====
/- A table of cases: channels 0 to 7 of the kernel's stored block at an index, each the one-position function's
   channel, by the hand-written tactic `open_channel` and the hand-written lemmas `cell_lin` / `cell_emb`. -/
import proofs.«141559_j70798240907696_1_alg».proof.Proof.BlockReads
import proofs.«141559_j70798240907696_1_alg».proof.Proof.KernelForms

set_option maxRecDepth 16384

noncomputable section

namespace Cert.KernelIdeal.Block

open Cert.KernelIdeal Cert.KernelIdeal.Gen Idealize.ShloMosaic Idealize.ShloMosaic.ValueIdx

variable (x0 : Vec Ideal S512x7x128 .f32) (x1 : Vec Ideal S512x128 .f32) (x2 : Vec Ideal S16x5 .f32)
  (x3 : Vec Ideal S16 .f32) (x4 : Vec Ideal S25x8 .f32) (r : Fin 512) (n : Fin 128)

theorem chan0 : out0_5 (F := Ideal) x0 x1 x2 x3 x4 (ix3 r ⟨0, by decide⟩ n)
    = Cert.Spec.cell (fun k => x0 (ix3 r k n)) (x1 (ix2 r n)) (fun o k => x2 (ix2 o k)) (fun o => x3 (ix1 o))
        (fun k d => x4 (ix2 k d)) ⟨0, by decide⟩ := by
  open_channel 0 r n
  exact Cert.Spec.cell_lin (fun k => x0 (ix3 r k n)) (x1 (ix2 r n)) (fun o k => x2 (ix2 o k)) (fun o => x3 (ix1 o))
    (fun k d => x4 (ix2 k d)) ⟨0, by decide⟩

theorem chan1 : out0_5 (F := Ideal) x0 x1 x2 x3 x4 (ix3 r ⟨1, by decide⟩ n)
    = Cert.Spec.cell (fun k => x0 (ix3 r k n)) (x1 (ix2 r n)) (fun o k => x2 (ix2 o k)) (fun o => x3 (ix1 o))
        (fun k d => x4 (ix2 k d)) ⟨1, by decide⟩ := by
  open_channel 1 r n
  exact Cert.Spec.cell_lin (fun k => x0 (ix3 r k n)) (x1 (ix2 r n)) (fun o k => x2 (ix2 o k)) (fun o => x3 (ix1 o))
    (fun k d => x4 (ix2 k d)) ⟨1, by decide⟩

theorem chan2 : out0_5 (F := Ideal) x0 x1 x2 x3 x4 (ix3 r ⟨2, by decide⟩ n)
    = Cert.Spec.cell (fun k => x0 (ix3 r k n)) (x1 (ix2 r n)) (fun o k => x2 (ix2 o k)) (fun o => x3 (ix1 o))
        (fun k d => x4 (ix2 k d)) ⟨2, by decide⟩ := by
  open_channel 2 r n
  exact Cert.Spec.cell_lin (fun k => x0 (ix3 r k n)) (x1 (ix2 r n)) (fun o k => x2 (ix2 o k)) (fun o => x3 (ix1 o))
    (fun k d => x4 (ix2 k d)) ⟨2, by decide⟩

theorem chan3 : out0_5 (F := Ideal) x0 x1 x2 x3 x4 (ix3 r ⟨3, by decide⟩ n)
    = Cert.Spec.cell (fun k => x0 (ix3 r k n)) (x1 (ix2 r n)) (fun o k => x2 (ix2 o k)) (fun o => x3 (ix1 o))
        (fun k d => x4 (ix2 k d)) ⟨3, by decide⟩ := by
  open_channel 3 r n
  exact Cert.Spec.cell_lin (fun k => x0 (ix3 r k n)) (x1 (ix2 r n)) (fun o k => x2 (ix2 o k)) (fun o => x3 (ix1 o))
    (fun k d => x4 (ix2 k d)) ⟨3, by decide⟩

theorem chan4 : out0_5 (F := Ideal) x0 x1 x2 x3 x4 (ix3 r ⟨4, by decide⟩ n)
    = Cert.Spec.cell (fun k => x0 (ix3 r k n)) (x1 (ix2 r n)) (fun o k => x2 (ix2 o k)) (fun o => x3 (ix1 o))
        (fun k d => x4 (ix2 k d)) ⟨4, by decide⟩ := by
  open_channel 4 r n
  exact Cert.Spec.cell_lin (fun k => x0 (ix3 r k n)) (x1 (ix2 r n)) (fun o k => x2 (ix2 o k)) (fun o => x3 (ix1 o))
    (fun k d => x4 (ix2 k d)) ⟨4, by decide⟩

theorem chan5 : out0_5 (F := Ideal) x0 x1 x2 x3 x4 (ix3 r ⟨5, by decide⟩ n)
    = Cert.Spec.cell (fun k => x0 (ix3 r k n)) (x1 (ix2 r n)) (fun o k => x2 (ix2 o k)) (fun o => x3 (ix1 o))
        (fun k d => x4 (ix2 k d)) ⟨5, by decide⟩ := by
  open_channel 5 r n
  exact Cert.Spec.cell_lin (fun k => x0 (ix3 r k n)) (x1 (ix2 r n)) (fun o k => x2 (ix2 o k)) (fun o => x3 (ix1 o))
    (fun k d => x4 (ix2 k d)) ⟨5, by decide⟩

theorem chan6 : out0_5 (F := Ideal) x0 x1 x2 x3 x4 (ix3 r ⟨6, by decide⟩ n)
    = Cert.Spec.cell (fun k => x0 (ix3 r k n)) (x1 (ix2 r n)) (fun o k => x2 (ix2 o k)) (fun o => x3 (ix1 o))
        (fun k d => x4 (ix2 k d)) ⟨6, by decide⟩ := by
  open_channel 6 r n
  exact Cert.Spec.cell_lin (fun k => x0 (ix3 r k n)) (x1 (ix2 r n)) (fun o k => x2 (ix2 o k)) (fun o => x3 (ix1 o))
    (fun k d => x4 (ix2 k d)) ⟨6, by decide⟩

theorem chan7 : out0_5 (F := Ideal) x0 x1 x2 x3 x4 (ix3 r ⟨7, by decide⟩ n)
    = Cert.Spec.cell (fun k => x0 (ix3 r k n)) (x1 (ix2 r n)) (fun o k => x2 (ix2 o k)) (fun o => x3 (ix1 o))
        (fun k d => x4 (ix2 k d)) ⟨7, by decide⟩ := by
  open_channel 7 r n
  exact Cert.Spec.cell_lin (fun k => x0 (ix3 r k n)) (x1 (ix2 r n)) (fun o k => x2 (ix2 o k)) (fun o => x3 (ix1 o))
    (fun k d => x4 (ix2 k d)) ⟨7, by decide⟩

end Cert.KernelIdeal.Block

end
-- ==== Proof.ChanB.lean ====
/- A table of cases: channels 8 to 15 of the kernel's stored block at an index, each the one-position function's
   channel, by the hand-written tactic `open_channel` and the hand-written lemmas `cell_lin` / `cell_emb`. -/
import proofs.«141559_j70798240907696_1_alg».proof.Proof.BlockReads
import proofs.«141559_j70798240907696_1_alg».proof.Proof.KernelForms

set_option maxRecDepth 16384

noncomputable section

namespace Cert.KernelIdeal.Block

open Cert.KernelIdeal Cert.KernelIdeal.Gen Idealize.ShloMosaic Idealize.ShloMosaic.ValueIdx

variable (x0 : Vec Ideal S512x7x128 .f32) (x1 : Vec Ideal S512x128 .f32) (x2 : Vec Ideal S16x5 .f32)
  (x3 : Vec Ideal S16 .f32) (x4 : Vec Ideal S25x8 .f32) (r : Fin 512) (n : Fin 128)

theorem chan8 : out0_5 (F := Ideal) x0 x1 x2 x3 x4 (ix3 r ⟨8, by decide⟩ n)
    = Cert.Spec.cell (fun k => x0 (ix3 r k n)) (x1 (ix2 r n)) (fun o k => x2 (ix2 o k)) (fun o => x3 (ix1 o))
        (fun k d => x4 (ix2 k d)) ⟨8, by decide⟩ := by
  open_channel 8 r n
  exact Cert.Spec.cell_lin (fun k => x0 (ix3 r k n)) (x1 (ix2 r n)) (fun o k => x2 (ix2 o k)) (fun o => x3 (ix1 o))
    (fun k d => x4 (ix2 k d)) ⟨8, by decide⟩

theorem chan9 : out0_5 (F := Ideal) x0 x1 x2 x3 x4 (ix3 r ⟨9, by decide⟩ n)
    = Cert.Spec.cell (fun k => x0 (ix3 r k n)) (x1 (ix2 r n)) (fun o k => x2 (ix2 o k)) (fun o => x3 (ix1 o))
        (fun k d => x4 (ix2 k d)) ⟨9, by decide⟩ := by
  open_channel 9 r n
  exact Cert.Spec.cell_lin (fun k => x0 (ix3 r k n)) (x1 (ix2 r n)) (fun o k => x2 (ix2 o k)) (fun o => x3 (ix1 o))
    (fun k d => x4 (ix2 k d)) ⟨9, by decide⟩

theorem chan10 : out0_5 (F := Ideal) x0 x1 x2 x3 x4 (ix3 r ⟨10, by decide⟩ n)
    = Cert.Spec.cell (fun k => x0 (ix3 r k n)) (x1 (ix2 r n)) (fun o k => x2 (ix2 o k)) (fun o => x3 (ix1 o))
        (fun k d => x4 (ix2 k d)) ⟨10, by decide⟩ := by
  open_channel 10 r n
  exact Cert.Spec.cell_lin (fun k => x0 (ix3 r k n)) (x1 (ix2 r n)) (fun o k => x2 (ix2 o k)) (fun o => x3 (ix1 o))
    (fun k d => x4 (ix2 k d)) ⟨10, by decide⟩

theorem chan11 : out0_5 (F := Ideal) x0 x1 x2 x3 x4 (ix3 r ⟨11, by decide⟩ n)
    = Cert.Spec.cell (fun k => x0 (ix3 r k n)) (x1 (ix2 r n)) (fun o k => x2 (ix2 o k)) (fun o => x3 (ix1 o))
        (fun k d => x4 (ix2 k d)) ⟨11, by decide⟩ := by
  open_channel 11 r n
  exact Cert.Spec.cell_lin (fun k => x0 (ix3 r k n)) (x1 (ix2 r n)) (fun o k => x2 (ix2 o k)) (fun o => x3 (ix1 o))
    (fun k d => x4 (ix2 k d)) ⟨11, by decide⟩

theorem chan12 : out0_5 (F := Ideal) x0 x1 x2 x3 x4 (ix3 r ⟨12, by decide⟩ n)
    = Cert.Spec.cell (fun k => x0 (ix3 r k n)) (x1 (ix2 r n)) (fun o k => x2 (ix2 o k)) (fun o => x3 (ix1 o))
        (fun k d => x4 (ix2 k d)) ⟨12, by decide⟩ := by
  open_channel 12 r n
  exact Cert.Spec.cell_lin (fun k => x0 (ix3 r k n)) (x1 (ix2 r n)) (fun o k => x2 (ix2 o k)) (fun o => x3 (ix1 o))
    (fun k d => x4 (ix2 k d)) ⟨12, by decide⟩

theorem chan13 : out0_5 (F := Ideal) x0 x1 x2 x3 x4 (ix3 r ⟨13, by decide⟩ n)
    = Cert.Spec.cell (fun k => x0 (ix3 r k n)) (x1 (ix2 r n)) (fun o k => x2 (ix2 o k)) (fun o => x3 (ix1 o))
        (fun k d => x4 (ix2 k d)) ⟨13, by decide⟩ := by
  open_channel 13 r n
  exact Cert.Spec.cell_lin (fun k => x0 (ix3 r k n)) (x1 (ix2 r n)) (fun o k => x2 (ix2 o k)) (fun o => x3 (ix1 o))
    (fun k d => x4 (ix2 k d)) ⟨13, by decide⟩

theorem chan14 : out0_5 (F := Ideal) x0 x1 x2 x3 x4 (ix3 r ⟨14, by decide⟩ n)
    = Cert.Spec.cell (fun k => x0 (ix3 r k n)) (x1 (ix2 r n)) (fun o k => x2 (ix2 o k)) (fun o => x3 (ix1 o))
        (fun k d => x4 (ix2 k d)) ⟨14, by decide⟩ := by
  open_channel 14 r n
  exact Cert.Spec.cell_lin (fun k => x0 (ix3 r k n)) (x1 (ix2 r n)) (fun o k => x2 (ix2 o k)) (fun o => x3 (ix1 o))
    (fun k d => x4 (ix2 k d)) ⟨14, by decide⟩

theorem chan15 : out0_5 (F := Ideal) x0 x1 x2 x3 x4 (ix3 r ⟨15, by decide⟩ n)
    = Cert.Spec.cell (fun k => x0 (ix3 r k n)) (x1 (ix2 r n)) (fun o k => x2 (ix2 o k)) (fun o => x3 (ix1 o))
        (fun k d => x4 (ix2 k d)) ⟨15, by decide⟩ := by
  open_channel 15 r n
  exact Cert.Spec.cell_lin (fun k => x0 (ix3 r k n)) (x1 (ix2 r n)) (fun o k => x2 (ix2 o k)) (fun o => x3 (ix1 o))
    (fun k d => x4 (ix2 k d)) ⟨15, by decide⟩

end Cert.KernelIdeal.Block

end
-- ==== Proof.ChanC.lean ====
/- A table of cases: channels 16 to 23 of the kernel's stored block at an index, each the one-position function's
   channel, by the hand-written tactic `open_channel` and the hand-written lemmas `cell_lin` / `cell_emb`. -/
import proofs.«141559_j70798240907696_1_alg».proof.Proof.BlockReads
import proofs.«141559_j70798240907696_1_alg».proof.Proof.KernelForms

set_option maxRecDepth 16384

noncomputable section

namespace Cert.KernelIdeal.Block

open Cert.KernelIdeal Cert.KernelIdeal.Gen Idealize.ShloMosaic Idealize.ShloMosaic.ValueIdx

variable (x0 : Vec Ideal S512x7x128 .f32) (x1 : Vec Ideal S512x128 .f32) (x2 : Vec Ideal S16x5 .f32)
  (x3 : Vec Ideal S16 .f32) (x4 : Vec Ideal S25x8 .f32) (r : Fin 512) (n : Fin 128)

theorem chan16 : out0_5 (F := Ideal) x0 x1 x2 x3 x4 (ix3 r ⟨16, by decide⟩ n)
    = Cert.Spec.cell (fun k => x0 (ix3 r k n)) (x1 (ix2 r n)) (fun o k => x2 (ix2 o k)) (fun o => x3 (ix1 o))
        (fun k d => x4 (ix2 k d)) ⟨16, by decide⟩ := by
  open_channel 16 r n
  exact Cert.Spec.cell_emb (fun k => x0 (ix3 r k n)) (x1 (ix2 r n)) (fun o k => x2 (ix2 o k)) (fun o => x3 (ix1 o))
    (fun k d => x4 (ix2 k d)) ⟨0, by decide⟩

theorem chan17 : out0_5 (F := Ideal) x0 x1 x2 x3 x4 (ix3 r ⟨17, by decide⟩ n)
    = Cert.Spec.cell (fun k => x0 (ix3 r k n)) (x1 (ix2 r n)) (fun o k => x2 (ix2 o k)) (fun o => x3 (ix1 o))
        (fun k d => x4 (ix2 k d)) ⟨17, by decide⟩ := by
  open_channel 17 r n
  exact Cert.Spec.cell_emb (fun k => x0 (ix3 r k n)) (x1 (ix2 r n)) (fun o k => x2 (ix2 o k)) (fun o => x3 (ix1 o))
    (fun k d => x4 (ix2 k d)) ⟨1, by decide⟩

theorem chan18 : out0_5 (F := Ideal) x0 x1 x2 x3 x4 (ix3 r ⟨18, by decide⟩ n)
    = Cert.Spec.cell (fun k => x0 (ix3 r k n)) (x1 (ix2 r n)) (fun o k => x2 (ix2 o k)) (fun o => x3 (ix1 o))
        (fun k d => x4 (ix2 k d)) ⟨18, by decide⟩ := by
  open_channel 18 r n
  exact Cert.Spec.cell_emb (fun k => x0 (ix3 r k n)) (x1 (ix2 r n)) (fun o k => x2 (ix2 o k)) (fun o => x3 (ix1 o))
    (fun k d => x4 (ix2 k d)) ⟨2, by decide⟩

theorem chan19 : out0_5 (F := Ideal) x0 x1 x2 x3 x4 (ix3 r ⟨19, by decide⟩ n)
    = Cert.Spec.cell (fun k => x0 (ix3 r k n)) (x1 (ix2 r n)) (fun o k => x2 (ix2 o k)) (fun o => x3 (ix1 o))
        (fun k d => x4 (ix2 k d)) ⟨19, by decide⟩ := by
  open_channel 19 r n
  exact Cert.Spec.cell_emb (fun k => x0 (ix3 r k n)) (x1 (ix2 r n)) (fun o k => x2 (ix2 o k)) (fun o => x3 (ix1 o))
    (fun k d => x4 (ix2 k d)) ⟨3, by decide⟩

theorem chan20 : out0_5 (F := Ideal) x0 x1 x2 x3 x4 (ix3 r ⟨20, by decide⟩ n)
    = Cert.Spec.cell (fun k => x0 (ix3 r k n)) (x1 (ix2 r n)) (fun o k => x2 (ix2 o k)) (fun o => x3 (ix1 o))
        (fun k d => x4 (ix2 k d)) ⟨20, by decide⟩ := by
  open_channel 20 r n
  exact Cert.Spec.cell_emb (fun k => x0 (ix3 r k n)) (x1 (ix2 r n)) (fun o k => x2 (ix2 o k)) (fun o => x3 (ix1 o))
    (fun k d => x4 (ix2 k d)) ⟨4, by decide⟩

theorem chan21 : out0_5 (F := Ideal) x0 x1 x2 x3 x4 (ix3 r ⟨21, by decide⟩ n)
    = Cert.Spec.cell (fun k => x0 (ix3 r k n)) (x1 (ix2 r n)) (fun o k => x2 (ix2 o k)) (fun o => x3 (ix1 o))
        (fun k d => x4 (ix2 k d)) ⟨21, by decide⟩ := by
  open_channel 21 r n
  exact Cert.Spec.cell_emb (fun k => x0 (ix3 r k n)) (x1 (ix2 r n)) (fun o k => x2 (ix2 o k)) (fun o => x3 (ix1 o))
    (fun k d => x4 (ix2 k d)) ⟨5, by decide⟩

theorem chan22 : out0_5 (F := Ideal) x0 x1 x2 x3 x4 (ix3 r ⟨22, by decide⟩ n)
    = Cert.Spec.cell (fun k => x0 (ix3 r k n)) (x1 (ix2 r n)) (fun o k => x2 (ix2 o k)) (fun o => x3 (ix1 o))
        (fun k d => x4 (ix2 k d)) ⟨22, by decide⟩ := by
  open_channel 22 r n
  exact Cert.Spec.cell_emb (fun k => x0 (ix3 r k n)) (x1 (ix2 r n)) (fun o k => x2 (ix2 o k)) (fun o => x3 (ix1 o))
    (fun k d => x4 (ix2 k d)) ⟨6, by decide⟩

theorem chan23 : out0_5 (F := Ideal) x0 x1 x2 x3 x4 (ix3 r ⟨23, by decide⟩ n)
    = Cert.Spec.cell (fun k => x0 (ix3 r k n)) (x1 (ix2 r n)) (fun o k => x2 (ix2 o k)) (fun o => x3 (ix1 o))
        (fun k d => x4 (ix2 k d)) ⟨23, by decide⟩ := by
  open_channel 23 r n
  exact Cert.Spec.cell_emb (fun k => x0 (ix3 r k n)) (x1 (ix2 r n)) (fun o k => x2 (ix2 o k)) (fun o => x3 (ix1 o))
    (fun k d => x4 (ix2 k d)) ⟨7, by decide⟩

end Cert.KernelIdeal.Block

end
-- ==== Proof.KernelBlock.lean ====
/-
  The kernel body's result block, read at one index.

  At a grid point the body sees a block `x0` of 512 rows of the transposed feature array (7 feature planes of
  128 lanes each), the matching 512 x 128 block `x1` of the mask, and the three small parameter arrays whole.
  It stores one 512 x 24 x 128 block.  Everything it computes is lane by lane and row by row, so the stored
  block's entry at (row `r`, channel `ch`, lane `n`) is the one-position function `Cert.Spec.cell` of the seven
  features `x0 (r, ·, n)` and the mask value `x1 (r, n)`: channel by channel, the 24 channel lemmas.
-/
import proofs.«141559_j70798240907696_1_alg».proof.Proof.ChanA
import proofs.«141559_j70798240907696_1_alg».proof.Proof.ChanB
import proofs.«141559_j70798240907696_1_alg».proof.Proof.ChanC

noncomputable section

namespace Cert.KernelIdeal.Block

open Cert.KernelIdeal Cert.KernelIdeal.Gen Idealize.ShloMosaic Idealize.ShloMosaic.ValueIdx

theorem block_eq (x0 : Vec Ideal S512x7x128 .f32) (x1 : Vec Ideal S512x128 .f32) (x2 : Vec Ideal S16x5 .f32)
    (x3 : Vec Ideal S16 .f32) (x4 : Vec Ideal S25x8 .f32) (r : Fin 512) (ch : Fin 24) (n : Fin 128) :
    out0_5 (F := Ideal) x0 x1 x2 x3 x4 (ix3 r ch n)
      = Cert.Spec.cell (fun k => x0 (ix3 r k n)) (x1 (ix2 r n)) (fun o k => x2 (ix2 o k)) (fun o => x3 (ix1 o))
          (fun k d => x4 (ix2 k d)) ch := by
  obtain ⟨c, hc⟩ := ch
  interval_cases c
  · exact chan0 x0 x1 x2 x3 x4 r n
  · exact chan1 x0 x1 x2 x3 x4 r n
  · exact chan2 x0 x1 x2 x3 x4 r n
  · exact chan3 x0 x1 x2 x3 x4 r n
  · exact chan4 x0 x1 x2 x3 x4 r n
  · exact chan5 x0 x1 x2 x3 x4 r n
  · exact chan6 x0 x1 x2 x3 x4 r n
  · exact chan7 x0 x1 x2 x3 x4 r n
  · exact chan8 x0 x1 x2 x3 x4 r n
  · exact chan9 x0 x1 x2 x3 x4 r n
  · exact chan10 x0 x1 x2 x3 x4 r n
  · exact chan11 x0 x1 x2 x3 x4 r n
  · exact chan12 x0 x1 x2 x3 x4 r n
  · exact chan13 x0 x1 x2 x3 x4 r n
  · exact chan14 x0 x1 x2 x3 x4 r n
  · exact chan15 x0 x1 x2 x3 x4 r n
  · exact chan16 x0 x1 x2 x3 x4 r n
  · exact chan17 x0 x1 x2 x3 x4 r n
  · exact chan18 x0 x1 x2 x3 x4 r n
  · exact chan19 x0 x1 x2 x3 x4 r n
  · exact chan20 x0 x1 x2 x3 x4 r n
  · exact chan21 x0 x1 x2 x3 x4 r n
  · exact chan22 x0 x1 x2 x3 x4 r n
  · exact chan23 x0 x1 x2 x3 x4 r n

end Cert.KernelIdeal.Block

end
-- ==== Proof.KernelArray.lean ====
/-
  From the kernel's blocks to its result array, and through the two transposes around the kernel.

  The program transposes the feature array `[16384, 128, 7]` to `[16384, 7, 128]`, runs the kernel over 32 grid
  points, point `t` reading rows `512 t … 512 t + 511` of the transposed features and of the mask and the three
  parameter arrays whole and writing rows `512 t … 512 t + 511` of a `[16384, 24, 128]` array, and transposes
  that array to `[16384, 128, 24]`.  Every entry of a written block is the one-position function of the seven
  features and the mask value at its row and lane, so the `[16384, 24, 128]` array is ONE function `Kt` of the
  arrays the kernel reads, entry by entry; the 32 blocks cover all its rows (row `b` lies in block `b / 512`);
  and the two transposes exchange the last two coordinates on the way in and on the way out, which turns `Kt`
  of the transposed features into the specification's array of the features as given.
-/
import proofs.«141559_j70798240907696_1_alg».proof.Proof.Gen.KernelIdeal.Frame
import proofs.«141559_j70798240907696_1_alg».proof.Proof.Spec
import proofs.«141559_j70798240907696_1_alg».proof.Proof.KernelBlock
import Idealize.ShloMosaic.Lib.ValueLayout
import Idealize.ShloMosaic.Lib.Pipeline.Value
import Idealize.ShloMosaic.Lib.Tactic

noncomputable section

namespace Cert.KernelIdeal.ArrayValue

open Cert.KernelIdeal Cert.KernelIdeal.Gen Idealize.ShloMosaic Idealize.ShloMosaic.TcCoe Idealize.SL.Sem
open Idealize.ShloMosaic.ValueIdx

section Blocks

variable (m : (ℓ : Loc nD τ sig) → Buf (Elt Ideal) ℓ)

/-- The block indices of the six windows at a grid point: the feature, mask and result blocks move with the point
    along the rows, the three parameter arrays are one block each. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The feature block at point `t` is rows `512 t … 512 t + 511` of the transposed feature array. -/
theorem iblk0_apply (c : Dev nD) (t : Fin cfg0.N) (x : S512x7x128.Idx) (k : S16384x7x128.Idx)
    (hk0 : (k 0).val = 512 * t.val + (x 0).val) (hk1 : (k 1).val = (x 1).val) (hk2 : (k 2).val = (x 2).val) :
    (iblk m c 0 t : Vec Ideal S512x7x128 .f32) x = (V m c main_v0 : S16384x7x128.Idx → EReal) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 512 + 1 * (x 0).val = (k 0).val; rw [e0, hk0]; omega
  | ⟨1, _⟩ => show win0_0.index t (1 : Fin 3) * 7 + 1 * (x 1).val = (k 1).val; rw [e1, hk1]; omega
  | ⟨2, _⟩ => show win0_0.index t (2 : Fin 3) * 128 + 1 * (x 2).val = (k 2).val; rw [e2, hk2]; omega

/-- The mask block at point `t` is rows `512 t … 512 t + 511` of the mask array. -/
theorem iblk1_apply (c : Dev nD) (t : Fin cfg0.N) (x : S512x128.Idx) (k : S16384x128.Idx)
    (hk0 : (k 0).val = 512 * t.val + (x 0).val) (hk1 : (k 1).val = (x 1).val) :
    (iblk m c 1 t : Vec Ideal S512x128 .f32) x = (V m c main_arg1 : S16384x128.Idx → EReal) k := by
  obtain ⟨-, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 512 + 1 * (x 0).val = (k 0).val; rw [e0, hk0]; omega
  | ⟨1, _⟩ => show win0_1.index t (1 : Fin 2) * 128 + 1 * (x 1).val = (k 1).val; rw [e1, hk1]; omega

/-- The weight block at every point is the weight array. -/
theorem iblk2_apply (c : Dev nD) (t : Fin cfg0.N) (x : S16x5.Idx) :
    (iblk m c 2 t : Vec Ideal S16x5 .f32) x = (V m c main_arg2 : S16x5.Idx → EReal) x := by
  obtain ⟨-, -, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 16 + 1 * (x 0).val = (x 0).val; rw [e0]; omega
  | ⟨1, _⟩ => show win0_2.index t (1 : Fin 2) * 5 + 1 * (x 1).val = (x 1).val; rw [e1]; omega

/-- The bias block at every point is the bias array. -/
theorem iblk3_apply (c : Dev nD) (t : Fin cfg0.N) (x : S16.Idx) :
    (iblk m c 3 t : Vec Ideal S16 .f32) x = (V m c main_arg3 : S16.Idx → EReal) x := by
  obtain ⟨-, -, -, -, -, -, -, e0, -⟩ := idx_facts t
  unfold iblk
  rw [View.read_apply]
  show V m c main_arg3 _ = V m c main_arg3 _
  congr 1
  funext a
  apply Fin.ext
  match a with
  | ⟨0, _⟩ => show win0_3.index t (0 : Fin 1) * 16 + 1 * (x 0).val = (x 0).val; rw [e0]; omega

/-- The table block at every point is the table. -/
theorem iblk4_apply (c : Dev nD) (t : Fin cfg0.N) (x : S25x8.Idx) :
    (iblk m c 4 t : Vec Ideal S25x8 .f32) x = (V m c main_arg4 : S25x8.Idx → EReal) x := by
  obtain ⟨-, -, -, -, -, -, -, -, e0, e1, -⟩ := idx_facts t
  unfold iblk
  rw [View.read_apply]
  show V m c main_arg4 _ = V m c main_arg4 _
  congr 1
  funext a
  apply Fin.ext
  match a with
  | ⟨0, _⟩ => show win0_4.index t (0 : Fin 2) * 25 + 1 * (x 0).val = (x 0).val; rw [e0]; omega
  | ⟨1, _⟩ => show win0_4.index t (1 : Fin 2) * 8 + 1 * (x 1).val = (x 1).val; rw [e1]; omega

/-- The array the region's first window reads is the feature array with its last two axes exchanged. -/
theorem v0_eq (c : Dev nD) : (V m c main_v0 : S16384x7x128.Idx → EReal)
    = transpose S16384x7x128 [0, 2, 1] (m ((c.tc : Thread nD τ).loc main_arg0)) transposes_S16384x128x7_S16384x7x128_0_2_1 := by
  show StableHlo.after hostOps0 (fun b => m (c, b)) (Proc.devRef .tc main_v0) = _
  after_results

/-- The region's result array `[16384, 24, 128]` as one function of the arrays its windows read: at
    `(row, channel, lane)` the one-position function of the seven features `v0 (row, ·, lane)` and the mask
    `a1 (row, lane)`. -/
def Kt (v0 : S16384x7x128.Idx → EReal) (a1 : S16384x128.Idx → EReal) (a2 : S16x5.Idx → EReal)
    (a3 : S16.Idx → EReal) (a4 : S25x8.Idx → EReal) : S16384x24x128.Idx → EReal :=
  fun i => Cert.Spec.cell (fun k => v0 (ix3 (i 0) k (i 2))) (a1 (ix2 (i 0) (i 2))) (fun o k => a2 (ix2 o k))
    (fun o => a3 (ix1 o)) (fun k d => a4 (ix2 k d)) (i 1)

/-- One entry of a stored block is the array function's entry, whenever each block entry the position reads is
    the array entry at the matching place. -/
theorem point_eq (x0 : Vec Ideal S512x7x128 .f32) (x1 : Vec Ideal S512x128 .f32) (x2 : Vec Ideal S16x5 .f32)
    (x3 : Vec Ideal S16 .f32) (x4 : Vec Ideal S25x8 .f32)
    (v0 : S16384x7x128.Idx → EReal) (a1 : S16384x128.Idx → EReal) (a2 : S16x5.Idx → EReal)
    (a3 : S16.Idx → EReal) (a4 : S25x8.Idx → EReal)
    (r : Fin 512) (ch : Fin 24) (n : Fin 128) (b : Fin 16384)
    (h0 : ∀ k : Fin 7, x0 (ix3 r k n) = v0 (ix3 b k n)) (h1 : x1 (ix2 r n) = a1 (ix2 b n))
    (h2 : ∀ y, x2 y = a2 y) (h3 : ∀ y, x3 y = a3 y) (h4 : ∀ y, x4 y = a4 y) :
    out0_5 (F := Ideal) x0 x1 x2 x3 x4 (ix3 r ch n) = Kt v0 a1 a2 a3 a4 (ix3 b ch n) := by
  rw [Cert.KernelIdeal.Block.block_eq]
  show _ = Cert.Spec.cell (fun k => v0 (ix3 b k n)) (a1 (ix2 b n)) (fun o k => a2 (ix2 o k))
    (fun o => a3 (ix1 o)) (fun k d => a4 (ix2 k d)) ch
  rw [h1, funext h0]
  simp only [h2, h3, h4]

/-- WHAT POINT `t` WRITES BACK is block `t` of `Kt` of the arrays as the region finds them. -/
theorem flushed_eq (c : Dev nD) (t : Fin cfg0.N) :
    (dats m 0 c).flushed 5 t = ((cfg0.win 5).blk t).view.read (Elt Ideal)
      (Kt (V m c main_v0) (V m c main_arg1) (V m c main_arg2) (V m c main_arg3) (V m c main_arg4)) := by
  show (cfg0.win 5).cut (grid0.coords t) ((dats m 0 c).after 5 t) = _
  rw [after0_5]
  obtain ⟨-, -, -, -, -, -, -, -, -, -, e0, e1, e2⟩ := idx_facts t
  have hN : cfg0.N = 32 := N_0
  have ht : t.val < 32 := hN ▸ t.isLt
  funext j
  rw [View.read_apply]
  have hj0 : (j 0).val < 512 := (j 0).isLt
  have hj1 : (j 1).val < 24 := (j 1).isLt
  have hj2 : (j 2).val < 128 := (j 2).isLt
  have hb : 512 * t.val + (j 0).val < 16384 := by omega
  have hemb : ((cfg0.win 5).blk t).view.emb j
      = ix3 (⟨512 * t.val + (j 0).val, hb⟩ : Fin 16384) (⟨(j 1).val, hj1⟩ : Fin 24) (⟨(j 2).val, hj2⟩ : Fin 128) := by
    funext a; apply Fin.ext
    match a with
    | ⟨0, _⟩ => show win0_5.index t (0 : Fin 3) * 512 + 1 * (j 0).val = 512 * t.val + (j 0).val; rw [e0]; omega
    | ⟨1, _⟩ => show win0_5.index t (1 : Fin 3) * 24 + 1 * (j 1).val = (j 1).val; rw [e1]; omega
    | ⟨2, _⟩ => show win0_5.index t (2 : Fin 3) * 128 + 1 * (j 2).val = (j 2).val; rw [e2]; omega
  have hx : (cfg0.win 5).xinj (grid0.coords t) j
      = ix3 (⟨(j 0).val, hj0⟩ : Fin 512) (⟨(j 1).val, hj1⟩ : Fin 24) (⟨(j 2).val, hj2⟩ : Fin 128) := by
    funext a; apply Fin.ext
    match a with
    | ⟨0, _⟩ => rfl
    | ⟨1, _⟩ => rfl
    | ⟨2, _⟩ => rfl
  show out0_5 (F := Ideal) (iblk m c 0 t) (iblk m c 1 t) (iblk m c 2 t) (iblk m c 3 t) (iblk m c 4 t)
      ((cfg0.win 5).xinj (grid0.coords t) j)
    = Kt (V m c main_v0) (V m c main_arg1) (V m c main_arg2) (V m c main_arg3) (V m c main_arg4)
      (((cfg0.win 5).blk t).view.emb j)
  rw [hemb, hx]
  refine point_eq (iblk m c 0 t) (iblk m c 1 t) (iblk m c 2 t) (iblk m c 3 t) (iblk m c 4 t)
    (V m c main_v0) (V m c main_arg1) (V m c main_arg2) (V m c main_arg3) (V m c main_arg4)
    ⟨(j 0).val, hj0⟩ ⟨(j 1).val, hj1⟩ ⟨(j 2).val, hj2⟩ ⟨512 * t.val + (j 0).val, hb⟩ ?_ ?_ ?_ ?_ ?_
  · intro k
    exact iblk0_apply m c t _ _ rfl rfl rfl
  · exact iblk1_apply m c t _ _ rfl rfl
  · exact iblk2_apply m c t
  · exact iblk3_apply m c t
  · exact iblk4_apply m c t

/-- An index of the result array is in point `t`'s block iff each coordinate is in the block's range on its axis. -/
theorem mem_blk (t : Fin cfg0.N) (i : S16384x24x128.Idx) :
    i ∈ ((cfg0.win 5).blk t).view.set ↔ ∀ a : Fin 3, win0_5.index t a * S512x24x128.size a ≤ (i a).val
      ∧ (i a).val < win0_5.index t a * S512x24x128.size a + S512x24x128.size a := by
  show i ∈ ((View.whole main_v1).slice (win0_5.rect t)).set ↔ _
  rw [View.set_slice_whole, Rect.mem_set_unit]
  exact Iff.rfl

/-- Every index of the result array is in the block of the point its row falls in: row `b` in point `b / 512`. -/
theorem cover (i : S16384x24x128.Idx) :
    ∃ t : Fin cfg0.N, (cfg0.win 5).flush t = true ∧ i ∈ ((cfg0.win 5).blk t).view.set := by
  have hi0 : (i 0).val < 16384 := (i 0).isLt
  have hi1 : (i 1).val < 24 := (i 1).isLt
  have hi2 : (i 2).val < 128 := (i 2).isLt
  have hN : cfg0.N = 32 := N_0
  have hq : (i 0).val / 512 < cfg0.N := by rw [hN]; omega
  refine ⟨⟨(i 0).val / 512, hq⟩, flush0_5 _, ?_⟩
  rw [mem_blk]
  obtain ⟨-, -, -, -, -, -, -, -, -, -, e0, e1, e2⟩ := idx_facts ⟨(i 0).val / 512, hq⟩
  have e0' : win0_5.index ⟨(i 0).val / 512, hq⟩ (0 : Fin 3) = (i 0).val / 512 := e0
  intro a
  match a with
  | ⟨0, _⟩ =>
    show win0_5.index ⟨(i 0).val / 512, hq⟩ (0 : Fin 3) * 512 ≤ (i 0).val
      ∧ (i 0).val < win0_5.index ⟨(i 0).val / 512, hq⟩ (0 : Fin 3) * 512 + 512
    rw [e0']; omega
  | ⟨1, _⟩ =>
    show win0_5.index ⟨(i 0).val / 512, hq⟩ (1 : Fin 3) * 24 ≤ (i 1).val
      ∧ (i 1).val < win0_5.index ⟨(i 0).val / 512, hq⟩ (1 : Fin 3) * 24 + 24
    rw [e1]; omega
  | ⟨2, _⟩ =>
    show win0_5.index ⟨(i 0).val / 512, hq⟩ (2 : Fin 3) * 128 ≤ (i 2).val
      ∧ (i 2).val < win0_5.index ⟨(i 0).val / 512, hq⟩ (2 : Fin 3) * 128 + 128
    rw [e2]; omega

/-- THE REGION'S RESULT ARRAY after the run is `Kt` of the arrays as the region finds them. -/
theorem final (c : Dev nD) : (dats m 0 c).arrAt 5 cfg0.N
    = Kt (V m c main_v0) (V m c main_arg1) (V m c main_arg2) (V m c main_arg3) (V m c main_arg4) :=
  (dats m 0 c).arrAt_eq_of_cover 5 _ (fun t _ => flushed_eq m c t) cover

/-- The region's array function of the transposed features, transposed back, is the specification's array. -/
theorem transposed_apply (a0 : S16384x128x7.Idx → EReal) (a1 : S16384x128.Idx → EReal) (a2 : S16x5.Idx → EReal)
    (a3 : S16.Idx → EReal) (a4 : S25x8.Idx → EReal) (b : Fin 16384) (n : Fin 128) (ch : Fin 24) :
    transpose S16384x128x24 [0, 2, 1]
        (Kt (transpose S16384x7x128 [0, 2, 1] a0 transposes_S16384x128x7_S16384x7x128_0_2_1) a1 a2 a3 a4)
        transposes_S16384x24x128_S16384x128x24_0_2_1 (ix3 b n ch)
      = Cert.Spec.arr a0 a1 a2 a3 a4 (ix3 b n ch) := by
  rw [transpose_ix3_021_apply]
  show Cert.Spec.cell (fun k => transpose S16384x7x128 [0, 2, 1] a0 transposes_S16384x128x7_S16384x7x128_0_2_1
        (ix3 b k n)) (a1 (ix2 b n)) (fun o k => a2 (ix2 o k)) (fun o => a3 (ix1 o))
        (fun k d => a4 (ix2 k d)) ch
    = Cert.Spec.cell (fun k => a0 (ix3 b n k)) (a1 (ix2 b n)) (fun o k => a2 (ix2 o k))
        (fun o => a3 (ix1 o)) (fun k d => a4 (ix2 k d)) ch
  have h : (fun k : Fin 7 => transpose S16384x7x128 [0, 2, 1] a0 transposes_S16384x128x7_S16384x7x128_0_2_1
      (ix3 b k n)) = fun k => a0 (ix3 b n k) :=
    funext fun k => transpose_ix3_021_apply a0 transposes_S16384x128x7_S16384x7x128_0_2_1 b k n
  rw [h]

theorem transposed_eq (a0 : S16384x128x7.Idx → EReal) (a1 : S16384x128.Idx → EReal) (a2 : S16x5.Idx → EReal)
    (a3 : S16.Idx → EReal) (a4 : S25x8.Idx → EReal) :
    transpose S16384x128x24 [0, 2, 1]
        (Kt (transpose S16384x7x128 [0, 2, 1] a0 transposes_S16384x128x7_S16384x7x128_0_2_1) a1 a2 a3 a4)
        transposes_S16384x24x128_S16384x128x24_0_2_1
      = Cert.Spec.arr a0 a1 a2 a3 a4 := by
  funext i
  have hi : i = ix3 (n0 := 16384) (n1 := 128) (n2 := 24) (i 0) (i 1) (i 2) := eq_ix3 i
  rw [hi]
  exact transposed_apply a0 a1 a2 a3 a4 (i 0) (i 1) (i 2)

/-- @main's result: the region's result array with its last two axes exchanged, which is the specification's array. -/
theorem tail_eq (c : Dev nD) : Pipeline.afterTail₀ cfgs (dats m) 0 (V0 m) [hostOps1] c main_v2
    = Cert.Spec.arr (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) := by
  unfold Pipeline.afterTail₀
  show StableHlo.after hostOps1 _ (Proc.devRef .tc main_v2) = _
  after_results
  have hw : Pipeline.withArrays (cfgs 0).spec c (V0 m c) (fun w => (dats m 0 c).arrAt w (cfgs 0).N)
        (Proc.devRef .tc main_v1)
      = Kt (V m c main_v0) (V m c main_arg1) (V m c main_arg2) (V m c main_arg3) (V m c main_arg4) :=
    (Pipeline.withArrays_arr spec0 launch0.win.arr_inj c _ _ 5).trans (final m c)
  rw [hw, v0_eq, V_main_arg1, V_main_arg2, V_main_arg3, V_main_arg4]
  exact transposed_eq _ _ _ _ _

end Blocks

/-- The kernel program's whole run, its result array named as the specification. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2)
        = Cert.Spec.arr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans
        (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.ArrayValue

end
-- ==== Proof.lean ====
/-
  The kernel and its reference compute the same array.

  Both programs take a feature array `[16384, 128, 7]`, a mask `[16384, 128]`, a weight matrix `[16, 5]`, a bias
  `[16]` and a table `[25, 8]`, and return `[16384, 128, 24]`.  At every position (b, n) the result's 24 channels
  are one function (`Cert.Spec.cell`) of that position's seven features and mask value and of the three small
  arrays: sixteen rectified-affine channels of the first five masked features, and eight channels holding one
  row of the table, the row chosen by a word computed from the sixth masked feature, all times the mask.
  The reference computes this with a contraction, a gather and a concatenation over the whole arrays
  (`RefValue.ref_eq`).  The kernel transposes the features so that lanes run along the 128 axis, computes 512
  rows at a time with lane-by-lane arithmetic only, the gather spelt as a sum over all 25 rows against
  indicators (`Block.block_eq`), and transposes the result back (`ArrayValue.run`).  On the extended reals the
  two agree without any use of the inputs' finiteness: only commutativity and associativity of `+` and `*`,
  `0 * x = 0` and `0 + x = x` are used.
-/
import proofs.«141559_j70798240907696_1_alg».proof.Defs
import proofs.«141559_j70798240907696_1_alg».proof.Proof.Gen.Kernel
import proofs.«141559_j70798240907696_1_alg».proof.Proof.Gen.Kernel.Frame
import proofs.«141559_j70798240907696_1_alg».proof.Proof.Gen.KernelIdeal
import proofs.«141559_j70798240907696_1_alg».proof.Proof.Gen.KernelIdeal.Frame
import proofs.«141559_j70798240907696_1_alg».proof.Proof.Gen.ReferenceIdeal
import proofs.«141559_j70798240907696_1_alg».proof.Proof.Gen.ReferenceIdeal.Run
import proofs.«141559_j70798240907696_1_alg».proof.Proof.Gen.ReferenceIdeal.Read
import proofs.«141559_j70798240907696_1_alg».proof.Proof.Gen.Pre_finite_inputs
import proofs.«141559_j70798240907696_1_alg».proof.Proof.RefValue
import proofs.«141559_j70798240907696_1_alg».proof.Proof.KernelArray
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel runs and leaves its arguments as they were
  fun m ρ _ => Cert.Kernel.Gen.frame m ρ,
  -- so does the idealized kernel
  fun m ρ _ => Cert.KernelIdeal.Gen.frame m ρ,
  -- and the reference: its run with the result forgotten
  fun m ρ _ => (θ_run Cert.ReferenceIdeal.defs _ _).mono (fun _ h c => (h c).2)
    (Cert.ReferenceIdeal.Value.run (F := Ideal) m ρ),
  -- the idealization rewrote nothing
  trivial,
  -- both runs end at the same function of the arguments, which agree
  by
    intro m ρ m' ρ' _ hagree
    refine ⟨fun c => Cert.Spec.arr
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)),
      Cert.KernelIdeal.ArrayValue.run m ρ, ?_⟩
    refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.ReferenceIdeal.RefValue.ref_eq, (hagree c).1, (hagree c).2.1,
      (hagree c).2.2.1, (hagree c).2.2.2.1, (hagree c).2.2.2.2]⟩

end Cert.Proof

end
